-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S2048x256 .f32 .bf16
  ∧ IdealRules.truncf_extf.Statement Cert.KernelIdeal.S2048x128 .f32 .bf16
  ∧ IdealRules.truncf_extf.Statement Cert.KernelIdeal.S256x256 .f32 .bf16
  ∧ IdealRules.truncf_extf.Statement Cert.KernelIdeal.S256x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S128x256 .f32) (main_arg8 : FVec F S256 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x256 .f32) (main_arg8 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8192x256 .f32) (main_arg1 : FVec F S256x128 .f32) (main_arg2 : FVec F S128 .f32) (main_arg3 : FVec F S256x128 .f32) (main_arg4 : FVec F S128 .f32) (main_arg5 : FVec F S256x128 .f32) (main_arg6 : FVec F S128 .f32) (main_arg7 : FVec F S128x256 .f32) (main_arg8 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S8192x256 : Shape := ⟨2, ![8192, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S1x256 : Shape := ⟨2, ![1, 256]⟩
abbrev S8192x384 : Shape := ⟨2, ![8192, 384]⟩
abbrev S8192x128 : Shape := ⟨2, ![8192, 128]⟩
abbrev S2048x256 : Shape := ⟨2, ![2048, 256]⟩
abbrev S2048x384 : Shape := ⟨2, ![2048, 384]⟩
abbrev S2048x128 : Shape := ⟨2, ![2048, 128]⟩
abbrev S2048x768 : Shape := ⟨2, ![2048, 768]⟩
abbrev S768x128 : Shape := ⟨2, ![768, 128]⟩
abbrev S256x256 : Shape := ⟨2, ![256, 256]⟩
abbrev S256x768 : Shape := ⟨2, ![256, 768]⟩
abbrev S256x384 : Shape := ⟨2, ![256, 384]⟩
abbrev S384x8192 : Shape := ⟨2, ![384, 8192]⟩
abbrev S256x8192 : Shape := ⟨2, ![256, 8192]⟩
abbrev S256x1 : Shape := ⟨2, ![256, 1]⟩

abbrev nBuf : Space → Nat
  | .hbm => 24
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .bf16⟩
  | .hbm, ⟨10, _⟩ => ⟨S256x128, .f32⟩
  | .hbm, ⟨11, _⟩ => ⟨S256x128, .f32⟩
  | .hbm, ⟨12, _⟩ => ⟨S256x128, .bf16⟩
  | .hbm, ⟨13, _⟩ => ⟨S256x128, .bf16⟩
  | .hbm, ⟨14, _⟩ => ⟨S256x128, .f32⟩
  | .hbm, ⟨15, _⟩ => ⟨S256x128, .f32⟩
  | .hbm, ⟨16, _⟩ => ⟨S256x128, .bf16⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x256, .f32⟩
  | .hbm, ⟨21, _⟩ => ⟨S8192x384, .bf16⟩
  | .hbm, ⟨22, _⟩ => ⟨S8192x128, .bf16⟩
  | .hbm, ⟨23, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x128, .bf16⟩
  | .local _ .vmem, ⟨3, _⟩ => ⟨S256x128, .bf16⟩
  | .local _ .vmem, ⟨4, _⟩ => ⟨S1x128, .f32⟩
  | .local _ .vmem, ⟨5, _⟩ => ⟨S256x128, .f32⟩
  | .local _ .vmem, ⟨6, _⟩ => ⟨S1x128, .f32⟩
  | .local _ .vmem, ⟨7, _⟩ => ⟨S2048x384, .bf16⟩
  | .local _ .vmem, ⟨8, _⟩ => ⟨S2048x384, .bf16⟩
  | .local _ .vmem, ⟨9, _⟩ => ⟨S2048x128, .bf16⟩
  | .local _ .vmem, ⟨10, _⟩ => ⟨S2048x128, .bf16⟩
  | .local _ .vmem, ⟨11, _⟩ => ⟨S256x256, .f32⟩
  | .local _ .vmem, ⟨12, _⟩ => ⟨S256x256, .f32⟩
  | .local _ .vmem, ⟨13, _⟩ => ⟨S256x128, .bf16⟩
  | .local _ .vmem, ⟨14, _⟩ => ⟨S256x128, .bf16⟩
  | .local _ .vmem, ⟨15, _⟩ => ⟨S1x128, .f32⟩
  | .local _ .vmem, ⟨16, _⟩ => ⟨S8192x384, .bf16⟩
  | .local _ .vmem, ⟨17, _⟩ => ⟨S8192x128, .bf16⟩
  | .local _ .vmem, ⟨18, _⟩ => ⟨S128x256, .f32⟩
  | .local _ .vmem, ⟨19, _⟩ => ⟨S1x256, .f32⟩
  | .local _ .vmem, ⟨20, _⟩ => ⟨S256x256, .f32⟩
  | .local _ .vmem, ⟨21, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  shapeCasts_S128_S1x128 : S128.ShapeCasts S1x128
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S2048x256_S2048x256_S2048x256_S2048x768_d1 : Shape.Concatenates [S2048x256, S2048x256, S2048x256] S2048x768 1
  concatenates_S256x128_S256x128_S256x128_S768x128_d0 : Shape.Concatenates [S256x128, S256x128, S256x128] S768x128 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  concatenates_S2048x128_S2048x128_S2048x128_S2048x384_d1 : Shape.Concatenates [S2048x128, S2048x128, S2048x128] S2048x384 1
  inb_S2048x384_S2048x384_0_0 : ∀ a, (![0, 0] : Fin 2 → Nat) a + S2048x384.size a ≤ S2048x384.size a
  h_S2048x384 : 0 < S2048x384.numel
  packedbf16_S2048x384_S2048x384_0_0 : (Rect.unit (s := S2048x384) ![0, 0] S2048x384.size inb_S2048x384_S2048x384_0_0).PackedRows (EltTy.packing .bf16)
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S256x256_S256x256_0_0 : ∀ a, (![0, 0] : Fin 2 → Nat) a + S256x256.size a ≤ S256x256.size a
  h_S256x256 : 0 < S256x256.numel
  concatenates_S256x256_S256x256_S256x256_S256x768_d1 : Shape.Concatenates [S256x256, S256x256, S256x256] S256x768 1
  broadcasts_S1x128_S256x128 : S1x128.Broadcasts S256x128
  inb_S8192x384_S8192x384_0_0 : ∀ a, (![0, 0] : Fin 2 → Nat) a + S8192x384.size a ≤ S8192x384.size a
  h_S8192x384 : 0 < S8192x384.numel
  shapeCasts_S8192x384_S8192x384 : S8192x384.ShapeCasts S8192x384
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  concatenates_S256x128_S256x128_S256x128_S256x384_d1 : Shape.Concatenates [S256x128, S256x128, S256x128] S256x384 1
  transposes_S8192x384_p1_0_S384x8192 : S8192x384.Transposes [1, 0] S384x8192
  reduces_S256x8192_S256 : S256x8192.Reduces [1] S256
  shapeCasts_S256_S256x1 : S256.ShapeCasts S256x1
  broadcasts_S256x1_S256x8192 : S256x1.Broadcasts S256x8192
  broadcasts_S256x1_S256x128 : S256x1.Broadcasts S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S2048x768_S768x128_S2048x128_1_0_0_1_n_n_wf : DotDims.WF S2048x768 S768x128 S2048x128 [1] [0] [0] [1] [] []
  dot_S2048x256_S256x128_S2048x128_1_0_0_1_n_n_wf : DotDims.WF S2048x256 S256x128 S2048x128 [1] [0] [0] [1] [] []
  dot_S256x768_S768x128_S256x128_1_0_0_1_n_n_wf : DotDims.WF S256x768 S768x128 S256x128 [1] [0] [0] [1] [] []
  dot_S256x384_S384x8192_S256x8192_1_0_0_1_n_n_wf : DotDims.WF S256x384 S384x8192 S256x8192 [1] [0] [0] [1] [] []
  dot_S256x8192_S8192x128_S256x128_1_0_0_1_n_n_wf : DotDims.WF S256x8192 S8192x128 S256x128 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x384.size a ≤ S8192x384.size a
  hwx0_6 : ∀ i : grid0.Coords, EltTy.bits .bf16 = 32 ∨ (Rect.block (s := S8192x384) S2048x384.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S8192x128.size a
  hwx0_7 : ∀ i : grid0.Coords, EltTy.bits .bf16 = 32 ∨ (Rect.block (s := S8192x128) S2048x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x256.size a
  hwx1_0 : ∀ i : grid1.Coords, EltTy.bits .f32 = 32 ∨ (Rect.block (s := S8192x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x384.size a ≤ S8192x384.size a
  hwx1_4 : ∀ i : grid1.Coords, EltTy.bits .bf16 = 32 ∨ (Rect.block (s := S8192x384) S8192x384.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S8192x128.size a
  hwx1_5 : ∀ i : grid1.Coords, EltTy.bits .bf16 = 32 ∨ (Rect.block (s := S8192x128) S8192x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S8192x256.size a
  hwx1_8 : ∀ i : grid1.Coords, EltTy.bits .f32 = 32 ∨ (Rect.block (s := S8192x256) S256x256.size (cc1_transform_8 i) (hinb1_8 i)).WholeWords (EltTy.packing .f32)

variable [Facts₀]

def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S256x384_S384x8192_S256x8192_1_0_0_1_n_n : DotDims S256x384 S384x8192 S256x8192 where
  lhsContracting := [1]
  rhsContracting := [0]
  lhsNonContracting := [0]
  rhsNonContracting := [1]
  lhsBatch := []
  rhsBatch := []
  wf := dot_S256x384_S384x8192_S256x8192_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S2048x384.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_0) S8192x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_1) S8192x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S256x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S128x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x128, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x256_S256x128_S8192x128_1_0_0_1_n_n_wf : DotDims.WF S8192x256 S256x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.Spec.lean ====
/-
  The mathematics of the certificate, with no program in sight: the non-local (embedded-Gaussian attention) block
  written row by row over the extended reals.

  For a row `x_q` of the input the block computes three affine projections `g`, `θ`, `φ` (row times a weight
  matrix plus a bias), the scores `s_q n = ⟨θ_q, φ_n⟩` against every row `n`, the softmax weights
  `e_n / l` with `e_n = exp (s_q n - max_n s_q n)` and `l = ∑ e_n`, the attended row `y_q = ∑ (e_n / l) · g_n`,
  and finally `y_q · W + b + x_q`.

  Two arrangements of that value are named here.  The ARRANGEMENT OF THE KERNEL splits every factor of the
  precision-sensitive products into a leading part and a residual, `v = v + (v - v)`, lays the three cross terms
  end to end along the contraction axis (`cat3`), and divides by `l` AFTER the sum over `n`.  The PLAIN
  arrangement contracts once and divides each weight before the sum.  On finite entries the residuals `v - v` vanish and
  the division moves across the sum; the module that proves this imports this one.
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals by row and column. -/
abbrev Mat (r c : ℕ) := Fin r → Fin c → EReal

/-- A rank-2 array read by its two coordinates. -/
abbrev cur2 {α : Type} {a b : ℕ} (X : (⟨2, ![a, b]⟩ : Shape).Idx → α) : Fin a → Fin b → α := fun i j => X (ix2 i j)
/-- A rank-1 array read by its coordinate. -/
abbrev cur1 {α : Type} {a : ℕ} (X : (⟨1, ![a]⟩ : Shape).Idx → α) : Fin a → α := fun i => X (ix1 i)

/-- Every entry of a matrix is a real number (neither infinity). -/
def IsRealM {r c : ℕ} (x : Mat r c) : Prop := ∀ i j, ∃ t : ℝ, x i j = (t : EReal)
/-- Every entry of a vector is a real number. -/
def IsRealV {n : ℕ} (b : Fin n → EReal) : Prop := ∀ j, ∃ t : ℝ, b j = (t : EReal)

/-- Three pieces of width `w` laid end to end: position `k` of the result is position `k`, `k - w` or `k - 2w`
    of the first, second or third piece. -/
def cat3 {α : Type} (w W : ℕ) (hW : W = w + w + w) (a b c : Fin w → α) (k : Fin W) : α :=
  if h : k.val < w then a ⟨k.val, h⟩
  else if h2 : k.val < w + w then b ⟨k.val - w, by omega⟩
  else c ⟨k.val - (w + w), by have := k.isLt; omega⟩

/-! ## The plain arrangement -/

/-- Row `xr` times `w` plus `b`: one contraction over the 256 input channels. -/
def projRow (xr : Fin 256 → EReal) (w : Mat 256 128) (b : Fin 128 → EReal) (j : Fin 128) : EReal :=
  (∑ k : Fin 256, xr k * w k j) + b j

/-- The largest of 8192 scores, folded from `-∞`. -/
def rowMax (s : Fin 8192 → EReal) : EReal := (Finset.univ : Finset (Fin 8192)).fold max ⊥ s
/-- The unnormalised softmax weight of entry `n`. -/
def expRow (s : Fin 8192 → EReal) (n : Fin 8192) : EReal := Ideal.exp (s n - rowMax s)
/-- The softmax normaliser. -/
def rowSum (s : Fin 8192 → EReal) : EReal := ∑ n : Fin 8192, expRow s n

/-- The attended row, each weight divided by the normaliser BEFORE the sum over `n`. -/
def attendPlain (s : Fin 8192 → EReal) (g : Mat 8192 128) (j : Fin 128) : EReal :=
  ∑ n : Fin 8192, Ideal.div (expRow s n) (rowSum s) * g n j
/-- The output row: `y · W + b + x`. -/
def outRow (y : Fin 128 → EReal) (Ww : Mat 128 256) (Wb : Fin 256 → EReal) (xr : Fin 256 → EReal) (c : Fin 256) : EReal :=
  ((∑ j : Fin 128, y j * Ww j c) + Wb c) + xr c

/-- The plain arrangement of the whole block, entry `(q, c)`. -/
def refOut (x : Mat 8192 256) (gw : Mat 256 128) (gb : Fin 128 → EReal) (thw : Mat 256 128) (thb : Fin 128 → EReal)
    (phw : Mat 256 128) (phb : Fin 128 → EReal) (Ww : Mat 128 256) (Wb : Fin 256 → EReal) : Mat 8192 256 := fun q c =>
  outRow (attendPlain (fun n => ∑ k : Fin 128, projRow (x q) thw thb k * projRow (x n) phw phb k)
      (fun n => projRow (x n) gw gb)) Ww Wb (x q) c

/-! ## The arrangement of the kernel -/

/-- The projection with both factors split: `[x, x - x, x] · [w_hi ; w_hi ; w_lo]` over the 768 laid-out channels. -/
def projSplitRow (xr : Fin 256 → EReal) (whi wlo : Mat 256 128) (b : Fin 128 → EReal) (j : Fin 128) : EReal :=
  (∑ k : Fin 768, cat3 256 768 rfl xr (fun k => xr k - xr k) xr k
      * cat3 256 768 rfl (fun k => whi k j) (fun k => whi k j) (fun k => wlo k j) k) + b j
/-- A projected row packed for the score product: `[φ, φ, φ - φ]`. -/
def packRow (φr : Fin 128 → EReal) : Fin 384 → EReal := cat3 128 384 rfl φr φr (fun k => φr k - φr k)
/-- The scores of a query row `θ` against the packed rows: `[θ, θ - θ, θ] · packed_n`. -/
def scoreSplitRow (θ : Fin 128 → EReal) (phiP : Mat 8192 384) (n : Fin 8192) : EReal :=
  ∑ k : Fin 384, cat3 128 384 rfl θ (fun k => θ k - θ k) θ k * phiP n k
/-- The attended row, divided by the normaliser AFTER the sum over `n`. -/
def attendLate (s : Fin 8192 → EReal) (g : Mat 8192 128) (j : Fin 128) : EReal :=
  Ideal.div (∑ n : Fin 8192, expRow s n * g n j) (rowSum s)

/-- What the second kernel leaves at entry `c` of a row, from that row `xr` of the input, the split weights of
    `θ`, the packed `φ` rows and the `g` rows the first kernel left, and the output projection. -/
def attnRow (xr : Fin 256 → EReal) (thwhi thwlo : Mat 256 128) (thb : Fin 128 → EReal) (phiP : Mat 8192 384)
    (gx : Mat 8192 128) (Ww : Mat 128 256) (Wb : Fin 256 → EReal) (c : Fin 256) : EReal :=
  outRow (attendLate (scoreSplitRow (projSplitRow xr thwhi thwlo thb) phiP) gx) Ww Wb xr c

/-- The kernel's arrangement of the whole block, entry `(q, c)`: the split weights are `w` and `w - w`. -/
def kerOut (x : Mat 8192 256) (gw : Mat 256 128) (gb : Fin 128 → EReal) (thw : Mat 256 128) (thb : Fin 128 → EReal)
    (phw : Mat 256 128) (phb : Fin 128 → EReal) (Ww : Mat 128 256) (Wb : Fin 256 → EReal) : Mat 8192 256 := fun q c =>
  attnRow (x q) thw (fun k j => thw k j - thw k j) thb
    (fun n => packRow (projSplitRow (x n) phw (fun k j => phw k j - phw k j) phb))
    (fun n => projRow (x n) gw gb) Ww Wb c

end Cert.Attn

end
-- ==== Proof.PayProj.lean ====
/- The first kernel's two stored values (the packed split projection and the `g` projection) and the second kernel's stored value (the output projection of an attended block, plus bias and residual), each read at an entry: a product is the sum over the contraction index, a bias row is broadcast down the rows, and three pieces laid end to end are read piece by piece. -/
import proofs.«403041_j12627203850615_3_alg».proof.Proof.Gen.KernelIdeal.Skeleton
import proofs.«403041_j12627203850615_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Attn
open Idealize.ShloMosaic Idealize.ShloMosaic.ValueIdx

/-! ## The 256-deep contraction of the `g` projection

The contraction record pairs axis 1 of the left operand with axis 0 of the right one.  Read at entry `(r, j)`, the
left index is `(r, k)` and the right index is `(k, j)`, where `k` is the one coordinate of the contraction index. -/

private theorem lhs_g_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
private theorem lhs_g_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
private theorem rhs_g_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
private theorem rhs_g_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product into the zero accumulator, read at `(r, j)`: the sum over the 256 shared channels. -/
private theorem matmul_g_apply {φ₁ φ₂ : FTy} (A : FVec Ideal S2048x256 φ₁) (B : FVec Ideal S256x128 φ₂) (r : Fin 2048) (j : Fin 128) :
    matmul dot_S2048x256_S256x128_S2048x128_1_0_0_1_n_n none A B (constant (F := Ideal) S2048x128 .f32 0x00000000#32) (ix2 r j)
      = ∑ k : Fin 256, A (ix2 r k) * B (ix2 k j) := by
  refine (Ideal.matmul_constant_zero_apply dot_S2048x256_S256x128_S2048x128_1_0_0_1_n_n none A B (ix2 r j)).trans ?_
  rw [← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r j) ((contrEquiv1 dot_S2048x256_S256x128_S2048x128_1_0_0_1_n_n 256 rfl rfl).symm k) = ix2 r k := funext fun a => Fin.ext (by
    match a with
    | ⟨0, _⟩ => exact lhs_g_0 _ _
    | ⟨1, _⟩ => exact (lhs_g_1 _ _).trans hk)
  have er : dot_S2048x256_S256x128_S2048x128_1_0_0_1_n_n.rhsIdx (ix2 r j) ((contrEquiv1 dot_S2048x256_S256x128_S2048x128_1_0_0_1_n_n 256 rfl rfl).symm k) = ix2 k j := funext fun a => Fin.ext (by
    match a with
    | ⟨0, _⟩ => exact (rhs_g_0 _ _).trans hk
    | ⟨1, _⟩ => exact rhs_g_1 _ _)
  rw [el, er]

/-! ## The 128-deep contraction of the output projection -/

private theorem lhs_out_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
private theorem lhs_out_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
private theorem rhs_out_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
private theorem rhs_out_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The product into the zero accumulator, read at `(r, c)`: the sum over the 128 attended channels. -/
private theorem matmul_out_apply {φ₁ φ₂ : FTy} (A : FVec Ideal S256x128 φ₁) (B : FVec Ideal S128x256 φ₂) (r c : Fin 256) :
    matmul dot_S256x128_S128x256_S256x256_1_0_0_1_n_n none A B (constant (F := Ideal) S256x256 .f32 0x00000000#32) (ix2 r c)
      = ∑ k : Fin 128, A (ix2 r k) * B (ix2 k c) := by
  refine (Ideal.matmul_constant_zero_apply dot_S256x128_S128x256_S256x256_1_0_0_1_n_n none A B (ix2 r c)).trans ?_
  rw [← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 r c) ((contrEquiv1 dot_S256x128_S128x256_S256x256_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S256x128_S128x256_S256x256_1_0_0_1_n_n.rhsIdx (ix2 r c) ((contrEquiv1 dot_S256x128_S128x256_S256x256_1_0_0_1_n_n 128 rfl rfl).symm k) = ix2 k c := funext fun a => Fin.ext (by
    match a with
    | ⟨0, _⟩ => exact (rhs_out_0 _ _).trans hk
    | ⟨1, _⟩ => exact rhs_out_1 _ _)
  rw [el, er]

/-! ## Three equal pieces laid end to end, read at an entry

A concatenation read at an index is the piece whose span holds the coordinate on the concatenated axis, read at
that coordinate less the extents of the pieces before it; the other coordinate is unchanged.  With three pieces of one
width `w` this is `cat3`: positions below `w`, below `2w`, and the rest. -/

/-- Three pieces of width `w` side by side (along the columns), read at `(r, k)`. -/
private theorem concat3_ax1_apply {α : Type} {a w W : ℕ} (hW : W = w + w + w)
    (x y z : (⟨2, ![a, w]⟩ : Shape).Idx → α)
    (h : Shape.Concatenates [(⟨2, ![a, w]⟩ : Shape), ⟨2, ![a, w]⟩, ⟨2, ![a, w]⟩] ⟨2, ![a, W]⟩ 1)
    (r : Fin a) (k : Fin W) :
    concatenate (⟨2, ![a, W]⟩ : Shape) 1 [⟨⟨2, ![a, w]⟩, x⟩, ⟨⟨2, ![a, w]⟩, y⟩, ⟨⟨2, ![a, w]⟩, z⟩] h (ix2 r k)
      = cat3 w W hW (fun k' => x (ix2 r k')) (fun k' => y (ix2 r k')) (fun k' => z (ix2 r k')) k := by
  unfold cat3
  split
  · rename_i h1
    refine concatenate_apply_piece (t := ⟨2, ![a, W]⟩) 1 [⟨⟨2, ![a, w]⟩, x⟩, ⟨⟨2, ![a, w]⟩, y⟩, ⟨⟨2, ![a, w]⟩, z⟩] h (ix2 r k) 0 (Nat.zero_lt_succ _) ⟨2, ![a, w]⟩ x rfl rfl 0 rfl (ix2 r ⟨k.val, h1⟩) (fun b hb => ?_) ?_
    · match b with
      | ⟨0, _⟩ => rfl
      | ⟨1, _⟩ => exact absurd rfl hb
    · show 0 + k.val = k.val
      omega
  · rename_i h1
    split
    · rename_i h2
      refine concatenate_apply_piece (t := ⟨2, ![a, W]⟩) 1 [⟨⟨2, ![a, w]⟩, x⟩, ⟨⟨2, ![a, w]⟩, y⟩, ⟨⟨2, ![a, w]⟩, z⟩] h (ix2 r k) 1 (Nat.succ_lt_succ (Nat.zero_lt_succ _)) ⟨2, ![a, w]⟩ y rfl rfl w rfl (ix2 r ⟨k.val - w, by omega⟩) (fun b hb => ?_) ?_
      · match b with
        | ⟨0, _⟩ => rfl
        | ⟨1, _⟩ => exact absurd rfl hb
      · show w + (k.val - w) = k.val
        omega
    · rename_i h2
      refine concatenate_apply_piece (t := ⟨2, ![a, W]⟩) 1 [⟨⟨2, ![a, w]⟩, x⟩, ⟨⟨2, ![a, w]⟩, y⟩, ⟨⟨2, ![a, w]⟩, z⟩] h (ix2 r k) 2 (Nat.succ_lt_succ (Nat.succ_lt_succ (Nat.zero_lt_succ _))) ⟨2, ![a, w]⟩ z rfl rfl (w + w) rfl (ix2 r ⟨k.val - (w + w), by have := k.isLt; omega⟩) (fun b hb => ?_) ?_
      · match b with
        | ⟨0, _⟩ => rfl
        | ⟨1, _⟩ => exact absurd rfl hb
      · show (w + w) + (k.val - (w + w)) = k.val
        omega

/-- Three pieces of height `w` stacked (along the rows), read at `(k, j)`. -/
private theorem concat3_ax0_apply {α : Type} {b w W : ℕ} (hW : W = w + w + w)
    (x y z : (⟨2, ![w, b]⟩ : Shape).Idx → α)
    (h : Shape.Concatenates [(⟨2, ![w, b]⟩ : Shape), ⟨2, ![w, b]⟩, ⟨2, ![w, b]⟩] ⟨2, ![W, b]⟩ 0)
    (k : Fin W) (j : Fin b) :
    concatenate (⟨2, ![W, b]⟩ : Shape) 0 [⟨⟨2, ![w, b]⟩, x⟩, ⟨⟨2, ![w, b]⟩, y⟩, ⟨⟨2, ![w, b]⟩, z⟩] h (ix2 k j)
      = cat3 w W hW (fun k' => x (ix2 k' j)) (fun k' => y (ix2 k' j)) (fun k' => z (ix2 k' j)) k := by
  unfold cat3
  split
  · rename_i h1
    refine concatenate_apply_piece (t := ⟨2, ![W, b]⟩) 0 [⟨⟨2, ![w, b]⟩, x⟩, ⟨⟨2, ![w, b]⟩, y⟩, ⟨⟨2, ![w, b]⟩, z⟩] h (ix2 k j) 0 (Nat.zero_lt_succ _) ⟨2, ![w, b]⟩ x rfl rfl 0 rfl (ix2 ⟨k.val, h1⟩ j) (fun c hc => ?_) ?_
    · match c with
      | ⟨0, _⟩ => exact absurd rfl hc
      | ⟨1, _⟩ => rfl
    · show 0 + k.val = k.val
      omega
  · rename_i h1
    split
    · rename_i h2
      refine concatenate_apply_piece (t := ⟨2, ![W, b]⟩) 0 [⟨⟨2, ![w, b]⟩, x⟩, ⟨⟨2, ![w, b]⟩, y⟩, ⟨⟨2, ![w, b]⟩, z⟩] h (ix2 k j) 1 (Nat.succ_lt_succ (Nat.zero_lt_succ _)) ⟨2, ![w, b]⟩ y rfl rfl w rfl (ix2 ⟨k.val - w, by omega⟩ j) (fun c hc => ?_) ?_
      · match c with
        | ⟨0, _⟩ => exact absurd rfl hc
        | ⟨1, _⟩ => rfl
      · show w + (k.val - w) = k.val
        omega
    · rename_i h2
      refine concatenate_apply_piece (t := ⟨2, ![W, b]⟩) 0 [⟨⟨2, ![w, b]⟩, x⟩, ⟨⟨2, ![w, b]⟩, y⟩, ⟨⟨2, ![w, b]⟩, z⟩] h (ix2 k j) 2 (Nat.succ_lt_succ (Nat.succ_lt_succ (Nat.zero_lt_succ _))) ⟨2, ![w, b]⟩ z rfl rfl (w + w) rfl (ix2 ⟨k.val - (w + w), by have := k.isLt; omega⟩ j) (fun c hc => ?_) ?_
      · match c with
        | ⟨0, _⟩ => exact absurd rfl hc
        | ⟨1, _⟩ => rfl
      · show (w + w) + (k.val - (w + w)) = k.val
        omega

/-- `cat3` read at a position depends only on the three pieces' entries. -/
private theorem cat3_congr {α : Type} {w W : ℕ} (hW : W = w + w + w) {a a' b b' c c' : Fin w → α}
    (ha : ∀ i, a i = a' i) (hb : ∀ i, b i = b' i) (hc : ∀ i, c i = c' i) (k : Fin W) :
    cat3 w W hW a b c k = cat3 w W hW a' b' c' k := by
  unfold cat3
  split
  · exact ha _
  · split
    · exact hb _
    · exact hc _

/-! ## The 768-deep contraction of the split projection -/

private theorem lhs_phi_0 (i : S2048x128.Idx) (q : dot_S2048x768_S768x128_S2048x128_1_0_0_1_n_n.contr.Idx) :
    (dot_S2048x768_S768x128_S2048x128_1_0_0_1_n_n.lhsIdx i q 0).val = (i 0).val := by
  unfold DotDims.lhsIdx
  rw [dif_neg (show ¬(0 : Fin S2048x768.rank) ∈ dot_S2048x768_S768x128_S2048x128_1_0_0_1_n_n.lhsBatch by decide), dif_pos (show (0 : Fin S2048x768.rank) ∈ dot_S2048x768_S768x128_S2048x128_1_0_0_1_n_n.lhsNonContracting by decide)]
  rfl
private theorem lhs_phi_1 (i : S2048x128.Idx) (q : dot_S2048x768_S768x128_S2048x128_1_0_0_1_n_n.contr.Idx) :
    (dot_S2048x768_S768x128_S2048x128_1_0_0_1_n_n.lhsIdx i q 1).val = (q ⟨0, by decide⟩).val :=
  dot_S2048x768_S768x128_S2048x128_1_0_0_1_n_n.lhsIdx_val_of_single rfl i q
private theorem rhs_phi_0 (i : S2048x128.Idx) (q : dot_S2048x768_S768x128_S2048x128_1_0_0_1_n_n.contr.Idx) :
    (dot_S2048x768_S768x128_S2048x128_1_0_0_1_n_n.rhsIdx i q 0).val = (q ⟨0, by decide⟩).val :=
  dot_S2048x768_S768x128_S2048x128_1_0_0_1_n_n.rhsIdx_val_of_single rfl i q
private theorem rhs_phi_1 (i : S2048x128.Idx) (q : dot_S2048x768_S768x128_S2048x128_1_0_0_1_n_n.contr.Idx) :
    (dot_S2048x768_S768x128_S2048x128_1_0_0_1_n_n.rhsIdx i q 1).val = (i 1).val := by
  unfold DotDims.rhsIdx
  rw [dif_neg (show ¬(1 : Fin S768x128.rank) ∈ dot_S2048x768_S768x128_S2048x128_1_0_0_1_n_n.rhsBatch by decide), dif_pos (show (1 : Fin S768x128.rank) ∈ dot_S2048x768_S768x128_S2048x128_1_0_0_1_n_n.rhsNonContracting by decide)]
  rfl

/-- The product into the zero accumulator, read at `(r, j)`: the sum over the 768 laid-out channels. -/
private theorem matmul_phi_apply {φ₁ φ₂ : FTy} (A : FVec Ideal S2048x768 φ₁) (B : FVec Ideal S768x128 φ₂) (r : Fin 2048) (j : Fin 128) :
    matmul dot_S2048x768_S768x128_S2048x128_1_0_0_1_n_n none A B (constant (F := Ideal) S2048x128 .f32 0x00000000#32) (ix2 r j)
      = ∑ k : Fin 768, A (ix2 r k) * B (ix2 k j) := by
  refine (Ideal.matmul_constant_zero_apply dot_S2048x768_S768x128_S2048x128_1_0_0_1_n_n none A B (ix2 r j)).trans ?_
  rw [← Equiv.sum_comp (contrEquiv1 dot_S2048x768_S768x128_S2048x128_1_0_0_1_n_n 768 rfl rfl).symm]
  refine Finset.sum_congr rfl fun k _ => ?_
  have hk := contrEquiv1_symm_val dot_S2048x768_S768x128_S2048x128_1_0_0_1_n_n 768 rfl rfl k
  have el : dot_S2048x768_S768x128_S2048x128_1_0_0_1_n_n.lhsIdx (ix2 r j) ((contrEquiv1 dot_S2048x768_S768x128_S2048x128_1_0_0_1_n_n 768 rfl rfl).symm k) = ix2 r k := funext fun a => Fin.ext (by
    match a with
    | ⟨0, _⟩ => exact lhs_phi_0 _ _
    | ⟨1, _⟩ => exact (lhs_phi_1 _ _).trans hk)
  have er : dot_S2048x768_S768x128_S2048x128_1_0_0_1_n_n.rhsIdx (ix2 r j) ((contrEquiv1 dot_S2048x768_S768x128_S2048x128_1_0_0_1_n_n 768 rfl rfl).symm k) = ix2 k j := funext fun a => Fin.ext (by
    match a with
    | ⟨0, _⟩ => exact (rhs_phi_0 _ _).trans hk
    | ⟨1, _⟩ => exact rhs_phi_1 _ _)
  rw [el, er]

/-- The split projection as the first kernel forms it before packing: the product of the laid-out input block
    `[x, x - x, x]` with the stacked weights `[w_hi ; w_hi ; w_lo]`, plus the bias row. -/
private def phiPre (v0 : Vec Ideal S2048x256 .f32) (v5 v7 : Vec Ideal S256x128 .bf16) (v12 : Vec Ideal S1x128 .f32) :
    FVec Ideal S2048x128 .f32 :=
  addf
    (matmul (φ₁ := .bf16) (φ₂ := .bf16) dot_S2048x768_S768x128_S2048x128_1_0_0_1_n_n none
      (concatenate S2048x768 1 [⟨S2048x256, k0_pay1 v0⟩, ⟨S2048x256, truncf .bf16 (subf v0 v0) bitsLt_bf16_f32⟩, ⟨S2048x256, k0_pay1 v0⟩]
        concatenates_S2048x256_S2048x256_S2048x256_S2048x768_d1)
      (concatenate S768x128 0 [⟨S256x128, shapeCast S256x128 v5 shapeCasts_S256x128_S256x128⟩, ⟨S256x128, shapeCast S256x128 v5 shapeCasts_S256x128_S256x128⟩, ⟨S256x128, shapeCast S256x128 v7 shapeCasts_S256x128_S256x128⟩]
        concatenates_S256x128_S256x128_S256x128_S768x128_d0)
      (constant S2048x128 .f32 0x00000000#32))
    (broadcastTo S2048x128 (shapeCast S1x128 v12 shapeCasts_S1x128_S1x128) broadcasts_S1x128_S2048x128)

/-- Entry `(r, j)` of that value is the split projection of row `r`. -/
private theorem phiPre_apply (v0 : Vec Ideal S2048x256 .f32) (v5 v7 : Vec Ideal S256x128 .bf16) (v12 : Vec Ideal S1x128 .f32)
    (r : Fin 2048) (j : Fin 128) :
    phiPre v0 v5 v7 v12 (ix2 r j)
      = projSplitRow (fun k' => v0 (ix2 r k')) (cur2 v5) (cur2 v7) (fun j' => v12 (ix2 (0 : Fin 1) j')) j := by
  unfold phiPre projSplitRow
  rw [shapeCast_self v5, shapeCast_self v7, shapeCast_self v12]
  refine (addf_apply _ _ _).trans ?_
  refine congrArg₂ (· + ·) ?_ ?_
  · refine (matmul_phi_apply _ _ r j).trans ?_
    refine Finset.sum_congr rfl fun k _ => ?_
    refine congrArg₂ (· * ·) ?_ ?_
    · exact concat3_ax1_apply (w := 256) (W := 768) rfl _ _ _ _ r k
    · exact concat3_ax0_apply (w := 256) (W := 768) rfl _ _ _ _ k j
  · exact broadcastTo_1b_ab_apply _ _ r j

/-- Entry `(r, k)` of the packed projection the first kernel stores: the packed split projection of row `r`. -/
theorem pay_phiPacked (v0 : Vec Ideal S2048x256 .f32) (v5 v7 : Vec Ideal S256x128 .bf16) (v12 : Vec Ideal S1x128 .f32)
    (r : Fin 2048) (k : Fin 384) :
    k0_pay2 (F := Ideal) v0 v5 v7 v12 (ix2 r k)
      = packRow (projSplitRow (fun k' => v0 (ix2 r k')) (cur2 v5) (cur2 v7) (fun j => v12 (ix2 (0 : Fin 1) j))) k := by
  unfold k0_pay2 packRow
  refine (concat3_ax1_apply (w := 128) (W := 384) rfl _ _ _ _ r k).trans ?_
  refine cat3_congr (w := 128) (W := 384) rfl (fun i => ?_) (fun i => ?_) (fun i => ?_) k
  · exact phiPre_apply v0 v5 v7 v12 r i
  · exact phiPre_apply v0 v5 v7 v12 r i
  · exact congrArg₂ (· - ·) (phiPre_apply v0 v5 v7 v12 r i) (phiPre_apply v0 v5 v7 v12 r i)

/-- Entry `(r, j)` of the `g` projection the first kernel stores: row `r` times the weight plus the bias. -/
theorem pay_g (v0 : Vec Ideal S2048x256 .f32) (v22 : Vec Ideal S256x128 .f32) (v25 : Vec Ideal S1x128 .f32)
    (r : Fin 2048) (j : Fin 128) :
    k0_pay3 (F := Ideal) v0 v22 v25 (ix2 r j)
      = projRow (fun k => v0 (ix2 r k)) (cur2 v22) (fun j' => v25 (ix2 (0 : Fin 1) j')) j := by
  unfold k0_pay3 k0_pay1 projRow
  refine (truncf_apply (ψ := .bf16) _ bitsLt_bf16_f32 _).trans ?_
  refine (addf_apply _ _ _).trans ?_
  refine congrArg₂ (· + ·) ?_ ?_
  · exact matmul_g_apply _ _ r j
  · rw [shapeCast_self]
    exact broadcastTo_1b_ab_apply _ _ r j

/-- Entry `(r, c)` of what the second kernel stores, from any attended block `v37`: `y · W + b + x`. -/
theorem pay_out (v0 : Vec Ideal S256x256 .f32) (v37 : FVec Ideal S256x128 .f32) (v38 : Vec Ideal S128x256 .f32)
    (v40 : Vec Ideal S1x256 .f32) (r c : Fin 256) :
    k1_pay1 (F := Ideal) v0 v37 (k1_pay3 v38) v40 (ix2 r c)
      = outRow (fun j => v37 (ix2 r j)) (cur2 v38) (fun c' => v40 (ix2 (0 : Fin 1) c')) (fun k => v0 (ix2 r k)) c := by
  unfold k1_pay1 k1_pay3 outRow
  refine (addf_apply _ _ _).trans ?_
  refine congrArg₂ (· + ·) ?_ rfl
  refine (addf_apply _ _ _).trans ?_
  refine congrArg₂ (· + ·) ?_ ?_
  · exact matmul_out_apply _ _ r c
  · rw [shapeCast_self]
    exact broadcastTo_1b_ab_apply _ _ r c

end Cert.KernelIdeal.Pay

end
-- ==== Proof.Region0.lean ====
/- The projection region's two output arrays after its run, entry by entry, at any entry contents: each grid point writes back one block of 2048 rows, the four blocks tile the array, and an entry of a block is the first kernel's stored value at that entry of the point's input blocks. -/
import proofs.«403041_j12627203850615_3_alg».proof.Proof.Gen.KernelIdeal.Frame
import proofs.«403041_j12627203850615_3_alg».proof.Proof.PayProj

noncomputable section

set_option maxRecDepth 16384
open scoped BigOperators

namespace Cert.KernelIdeal.Regions

open Cert.KernelIdeal Cert.KernelIdeal.Gen Cert.Attn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset of a whole-buffer access, as a constant function. -/
private theorem zero_off : (![0, 0] : Fin 2 → Nat) = fun _ => 0 := funext fun a => by fin_cases a <;> rfl

/-- The block index maps of the projection grid, decided over its four points: the row-blocked windows (the input
    rows, the packed output, the `g` output) sit at block `(t, 0)`, the weights and biases at block `(0, 0)`. -/
private theorem proj_index_maps : ∀ t : Fin cfg0.N,
      t.val ≤ 3
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The packed array -/

/-- The packed array the region leaves: entry `(n, k)` is position `k` of the packed split projection of input row `n`. -/
def region0_phiArr (c : Dev nD) : S8192x384.Idx → EReal := fun i =>
  packRow (projSplitRow (fun k' => (V c main_arg0 : S8192x256.Idx → EReal) (ix2 (n0 := 8192) (i 0) k'))
    (cur2 (V c main_v4 : S256x128.Idx → EReal)) (cur2 (V c main_v7 : S256x128.Idx → EReal))
    (fun j => (V c main_v8 : S1x128.Idx → EReal) (ix2 (0 : Fin 1) j))) (i 1)

/-- Two packed split projections agree when their rows, weights, biases and positions do. -/
private theorem packed_congr (x : S8192x256.Idx → EReal) (whi wlo : S256x128.Idx → EReal) (b : S1x128.Idx → EReal)
    (v0 : S2048x256.Idx → EReal) (v1 v2 : S256x128.Idx → EReal) (v3 : S1x128.Idx → EReal)
    (r : Fin 2048) (k : Fin 384) (n : Fin 8192) (k2 : Fin 384)
    (h0 : ∀ k' : Fin 256, v0 (ix2 r k') = x (ix2 n k')) (h1 : v1 = whi) (h2 : v2 = wlo) (h3 : v3 = b) (hk : k = k2) :
    packRow (projSplitRow (fun k' => v0 (ix2 r k')) (cur2 v1) (cur2 v2) (fun j => v3 (ix2 (0 : Fin 1) j))) k
      = packRow (projSplitRow (fun k' => x (ix2 n k')) (cur2 whi) (cur2 wlo) (fun j => b (ix2 (0 : Fin 1) j))) k2 := by
  subst h1 h2 h3 hk
  rw [show (fun k' => v0 (ix2 r k')) = fun k' => x (ix2 n k') from funext h0]

/-- What point `t` writes back to the packed array is block `t` of `region0_phiArr`: the stored value at `(r, k)` is the packed split
    projection of the block's row `r`, which is row `2048 t + r` of the input; the weights and the bias are read whole. -/
theorem region0_flushed_phi (c : Dev nD) (t : Fin cfg0.N) :
    (dat0 (F := Ideal) V c).flushed 6 t = ((cfg0.win 6).blk t).view.read (Elt Ideal) (region0_phiArr V c) := by
  show (cfg0.win 6).cut (grid0.coords t) ((dat0 V c).after 6 t) = _
  rw [after0_6]
  unfold out0_6
  rw [View.canon_unit_zero zero_off]
  simp only [View.ld_unit_zero (S := S2048x256) zero_off, View.ld_unit_zero (S := S256x128) zero_off, View.ld_unit_zero (S := S1x128) zero_off]
  funext j
  obtain ⟨r, k, rfl⟩ : ∃ (r : Fin 2048) (k : Fin 384), j = ix2 r k := ⟨j 0, j 1, eq_ix2 j⟩

  refine (Pay.pay_phiPacked (iblk0 V c 0 t) (iblk0 V c 1 t) (iblk0 V c 2 t) (iblk0 V c 3 t) r k).trans ?_
  obtain ⟨ht, a00, a01, a10, a11, a20, a21, a30, a31, a40, a41, a50, a51, a60, a61, a70, a71⟩ := proj_index_maps t
  have h0 : ∀ k' : Fin 256, iblk0 V c 0 t (ix2 r k')
      = (V c main_arg0 : S8192x256.Idx → EReal) (ix2 (n0 := 8192) ((((cfg0.win 6).blk t).view.emb (ix2 r k)) 0) k') := by
    intro k'
    show V c main_arg0 (((cfg0.win 0).blk t).view.emb (ix2 r k')) = _
    refine congrArg _ ?_
    funext a; apply Fin.ext
    match a with
    | ⟨0, _⟩ => show win0_0.index t (0 : Fin 2) * 2048 + 1 * r.val = win0_6.index t (0 : Fin 2) * 2048 + 1 * r.val; omega
    | ⟨1, _⟩ => show win0_0.index t (1 : Fin 2) * 256 + 1 * k'.val = k'.val; omega
  have h1 : iblk0 V c 1 t = (V c main_v4 : S256x128.Idx → EReal) := by
    funext y
    show V c main_v4 (((cfg0.win 1).blk t).view.emb y) = V c main_v4 y
    refine congrArg _ ?_
    funext a; apply Fin.ext
    match a with
    | ⟨0, _⟩ => show win0_1.index t (0 : Fin 2) * 256 + 1 * (y 0).val = (y 0).val; omega
    | ⟨1, _⟩ => show win0_1.index t (1 : Fin 2) * 128 + 1 * (y 1).val = (y 1).val; omega
  have h2 : iblk0 V c 2 t = (V c main_v7 : S256x128.Idx → EReal) := by
    funext y
    show V c main_v7 (((cfg0.win 2).blk t).view.emb y) = V c main_v7 y
    refine congrArg _ ?_
    funext a; apply Fin.ext
    match a with
    | ⟨0, _⟩ => show win0_2.index t (0 : Fin 2) * 256 + 1 * (y 0).val = (y 0).val; omega
    | ⟨1, _⟩ => show win0_2.index t (1 : Fin 2) * 128 + 1 * (y 1).val = (y 1).val; omega
  have h3 : iblk0 V c 3 t = (V c main_v8 : S1x128.Idx → EReal) := by
    funext y
    show V c main_v8 (((cfg0.win 3).blk t).view.emb y) = V c main_v8 y
    refine congrArg _ ?_
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  have hk : (((cfg0.win 6).blk t).view.emb (ix2 r k)) 1 = k :=
    Fin.ext (show win0_6.index t (1 : Fin 2) * 384 + 1 * k.val = k.val by omega)
  exact packed_congr (V c main_arg0) (V c main_v4) (V c main_v7) (V c main_v8) (iblk0 V c 0 t) (iblk0 V c 1 t) (iblk0 V c 2 t) (iblk0 V c 3 t)
    r k _ _ h0 h1 h2 h3 hk.symm

/-- An index of the packed array is in point `t`'s block iff each coordinate is in the block's range on its axis. -/
theorem region0_mem_blk_phi (t : Fin cfg0.N) (i : S8192x384.Idx) :
    i ∈ ((cfg0.win 6).blk t).view.set ↔ ∀ a : Fin 2, win0_6.index t a * S2048x384.size a ≤ (i a).val ∧ (i a).val < win0_6.index t a * S2048x384.size a + S2048x384.size a := by
  show i ∈ ((View.whole main_v12_0).slice (win0_6.rect t)).set ↔ _
  rw [View.set_slice_whole, Rect.mem_set_unit]
  exact Iff.rfl

/-- Every entry of the packed array is written back by some point: row `n` by point `n / 2048`. -/
theorem region0_cover_phi (i : S8192x384.Idx) :
    ∃ t : Fin cfg0.N, (cfg0.win 6).flush t = true ∧ i ∈ ((cfg0.win 6).blk t).view.set := by
  have hi0 : (i 0).val < 8192 := idx2_lt0 i
  have hi1 : (i 1).val < 384 := idx2_lt1 i
  let t : Fin cfg0.N := ⟨(i 0).val / 2048, by rw [show cfg0.N = 4 from N_0]; omega⟩
  obtain ⟨ht, a00, a01, a10, a11, a20, a21, a30, a31, a40, a41, a50, a51, a60, a61, a70, a71⟩ := proj_index_maps t
  have htv : t.val = (i 0).val / 2048 := rfl
  refine ⟨t, flush0_6 t, ?_⟩
  rw [region0_mem_blk_phi]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 384 ≤ (i 1).val ∧ (i 1).val < win0_6.index t (1 : Fin 2) * 384 + 384; omega

/-- The packed array after the region's run is `region0_phiArr`. -/
theorem region0_final_phi (c : Dev nD) : (dat0 (F := Ideal) V c).arrAt 6 cfg0.N = region0_phiArr V c :=
  (dat0 (F := Ideal) V c).arrAt_eq_of_cover 6 (region0_phiArr V c) (fun t _ => region0_flushed_phi V c t) region0_cover_phi

/-- After the projection region, entry `(n, k)` of the packed array is the packed split projection of row `n` of the
    input as the region found it. -/
theorem region0_phi_apply (c : Dev nD) (n : Fin 8192) (k : Fin 384) :
    ((dat0 (F := Ideal) V c).arrAt 6 cfg0.N : S8192x384.Idx → EReal) (ix2 n k)
      = packRow (projSplitRow (fun k' => (V c main_arg0 : S8192x256.Idx → EReal) (ix2 n k'))
          (cur2 (V c main_v4 : S256x128.Idx → EReal)) (cur2 (V c main_v7 : S256x128.Idx → EReal))
          (fun j => (V c main_v8 : S1x128.Idx → EReal) (ix2 (0 : Fin 1) j))) k := by
  rw [region0_final_phi V c]
  rfl

/-! ## The `g` array -/

/-- The `g` array the region leaves: entry `(n, j)` is row `n` of the input times the weight, plus the bias. -/
def region0_gArr (c : Dev nD) : S8192x128.Idx → EReal := fun i =>
  projRow (fun k => (V c main_arg0 : S8192x256.Idx → EReal) (ix2 (n0 := 8192) (i 0) k))
    (cur2 (V c main_arg1 : S256x128.Idx → EReal)) (fun j' => (V c main_v9 : S1x128.Idx → EReal) (ix2 (0 : Fin 1) j')) (i 1)

/-- Two plain projections agree when their rows, weights, biases and positions do. -/
private theorem proj_congr (x : S8192x256.Idx → EReal) (w : S256x128.Idx → EReal) (b : S1x128.Idx → EReal)
    (v0 : S2048x256.Idx → EReal) (v4 : S256x128.Idx → EReal) (v5 : S1x128.Idx → EReal)
    (r : Fin 2048) (j : Fin 128) (n : Fin 8192) (j2 : Fin 128)
    (h0 : ∀ k : Fin 256, v0 (ix2 r k) = x (ix2 n k)) (h4 : v4 = w) (h5 : v5 = b) (hj : j = j2) :
    projRow (fun k => v0 (ix2 r k)) (cur2 v4) (fun j' => v5 (ix2 (0 : Fin 1) j')) j
      = projRow (fun k => x (ix2 n k)) (cur2 w) (fun j' => b (ix2 (0 : Fin 1) j')) j2 := by
  subst h4 h5 hj
  rw [show (fun k => v0 (ix2 r k)) = fun k => x (ix2 n k) from funext h0]

/-- What point `t` writes back to the `g` array is block `t` of `region0_gArr`: the stored value at `(r, j)` is the projection of
    the block's row `r`, which is row `2048 t + r` of the input; the weight and the bias are read whole. -/
theorem region0_flushed_g (c : Dev nD) (t : Fin cfg0.N) :
    (dat0 (F := Ideal) V c).flushed 7 t = ((cfg0.win 7).blk t).view.read (Elt Ideal) (region0_gArr V c) := by
  show (cfg0.win 7).cut (grid0.coords t) ((dat0 V c).after 7 t) = _
  rw [after0_7]
  unfold out0_7
  rw [View.canon_unit_zero zero_off]
  simp only [View.ld_unit_zero (S := S2048x256) zero_off, View.ld_unit_zero (S := S256x128) zero_off, View.ld_unit_zero (S := S1x128) zero_off]
  funext y
  obtain ⟨r, j, rfl⟩ : ∃ (r : Fin 2048) (j : Fin 128), y = ix2 r j := ⟨y 0, y 1, eq_ix2 y⟩
  refine (Pay.pay_g (iblk0 V c 0 t) (iblk0 V c 4 t) (iblk0 V c 5 t) r j).trans ?_
  obtain ⟨ht, a00, a01, a10, a11, a20, a21, a30, a31, a40, a41, a50, a51, a60, a61, a70, a71⟩ := proj_index_maps t
  have h0 : ∀ k : Fin 256, iblk0 V c 0 t (ix2 r k)
      = (V c main_arg0 : S8192x256.Idx → EReal) (ix2 (n0 := 8192) ((((cfg0.win 7).blk t).view.emb (ix2 r j)) 0) k) := by
    intro k
    show V c main_arg0 (((cfg0.win 0).blk t).view.emb (ix2 r k)) = _
    refine congrArg _ ?_
    funext a; apply Fin.ext
    match a with
    | ⟨0, _⟩ => show win0_0.index t (0 : Fin 2) * 2048 + 1 * r.val = win0_7.index t (0 : Fin 2) * 2048 + 1 * r.val; omega
    | ⟨1, _⟩ => show win0_0.index t (1 : Fin 2) * 256 + 1 * k.val = k.val; omega
  have h4 : iblk0 V c 4 t = (V c main_arg1 : S256x128.Idx → EReal) := by
    funext y
    show V c main_arg1 (((cfg0.win 4).blk t).view.emb y) = V c main_arg1 y
    refine congrArg _ ?_
    funext a; apply Fin.ext
    match a with
    | ⟨0, _⟩ => show win0_4.index t (0 : Fin 2) * 256 + 1 * (y 0).val = (y 0).val; omega
    | ⟨1, _⟩ => show win0_4.index t (1 : Fin 2) * 128 + 1 * (y 1).val = (y 1).val; omega
  have h5 : iblk0 V c 5 t = (V c main_v9 : S1x128.Idx → EReal) := by
    funext y
    show V c main_v9 (((cfg0.win 5).blk t).view.emb y) = V c main_v9 y
    refine congrArg _ ?_
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  have hj : (((cfg0.win 7).blk t).view.emb (ix2 r j)) 1 = j :=
    Fin.ext (show win0_7.index t (1 : Fin 2) * 128 + 1 * j.val = j.val by omega)
  exact proj_congr (V c main_arg0) (V c main_arg1) (V c main_v9) (iblk0 V c 0 t) (iblk0 V c 4 t) (iblk0 V c 5 t)
    r j _ _ h0 h4 h5 hj.symm

/-- An index of the `g` array is in point `t`'s block iff each coordinate is in the block's range on its axis. -/
theorem region0_mem_blk_g (t : Fin cfg0.N) (i : S8192x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v12_1).slice (win0_7.rect t)).set ↔ _
  rw [View.set_slice_whole, Rect.mem_set_unit]
  exact Iff.rfl

/-- Every entry of the `g` array is written back by some point: row `n` by point `n / 2048`. -/
theorem region0_cover_g (i : S8192x128.Idx) :
    ∃ t : Fin cfg0.N, (cfg0.win 7).flush t = true ∧ i ∈ ((cfg0.win 7).blk t).view.set := by
  have hi0 : (i 0).val < 8192 := idx2_lt0 i
  have hi1 : (i 1).val < 128 := idx2_lt1 i
  let t : Fin cfg0.N := ⟨(i 0).val / 2048, by rw [show cfg0.N = 4 from N_0]; omega⟩
  obtain ⟨ht, a00, a01, a10, a11, a20, a21, a30, a31, a40, a41, a50, a51, a60, a61, a70, a71⟩ := proj_index_maps t
  have htv : t.val = (i 0).val / 2048 := rfl
  refine ⟨t, flush0_7 t, ?_⟩
  rw [region0_mem_blk_g]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- The `g` array after the region's run is `region0_gArr`. -/
theorem region0_final_g (c : Dev nD) : (dat0 (F := Ideal) V c).arrAt 7 cfg0.N = region0_gArr V c :=
  (dat0 (F := Ideal) V c).arrAt_eq_of_cover 7 (region0_gArr V c) (fun t _ => region0_flushed_g V c t) region0_cover_g

/-- After the projection region, entry `(n, j)` of the `g` array is row `n` times the weight plus the bias. -/
theorem region0_g_apply (c : Dev nD) (n : Fin 8192) (j : Fin 128) :
    ((dat0 (F := Ideal) V c).arrAt 7 cfg0.N : S8192x128.Idx → EReal) (ix2 n j)
      = projRow (fun k => (V c main_arg0 : S8192x256.Idx → EReal) (ix2 n k))
          (cur2 (V c main_arg1 : S256x128.Idx → EReal)) (fun j' => (V c main_v9 : S1x128.Idx → EReal) (ix2 (0 : Fin 1) j')) j := by
  rw [region0_final_g V c]
  rfl

end Cert.KernelIdeal.Regions

end
-- ==== Proof.PayAttn.lean ====
/-
  The second kernel's attended block read at an entry `(r, j)`: the split projection of row `r` (a 768-deep
  contraction of two three-piece concatenations plus a broadcast bias), its scores against the packed rows (a 384-deep
  contraction with the transposed packed array), the row maximum, the exponentials, their row sum, their sum against
  `g`, and the division by the row sum.  Each stage is read at an index on its own; the block is their composition.
-/
import proofs.«403041_j12627203850615_3_alg».proof.Proof.Gen.KernelIdeal.Skeleton
import proofs.«403041_j12627203850615_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Attn
open Idealize.ShloMosaic Idealize.ShloMosaic.ValueIdx

/-! ## The three contractions read at an index -/

private theorem lhs_proj_0 (i : S256x128.Idx) (q : dot_S256x768_S768x128_S256x128_1_0_0_1_n_n.contr.Idx) :
    (dot_S256x768_S768x128_S256x128_1_0_0_1_n_n.lhsIdx i q 0).val = (i 0).val := by
  unfold DotDims.lhsIdx
  rw [dif_neg (show ¬(0 : Fin S256x768.rank) ∈ dot_S256x768_S768x128_S256x128_1_0_0_1_n_n.lhsBatch by decide), dif_pos (show (0 : Fin S256x768.rank) ∈ dot_S256x768_S768x128_S256x128_1_0_0_1_n_n.lhsNonContracting by decide)]
  rfl
private theorem lhs_proj_1 (i : S256x128.Idx) (q : dot_S256x768_S768x128_S256x128_1_0_0_1_n_n.contr.Idx) :
    (dot_S256x768_S768x128_S256x128_1_0_0_1_n_n.lhsIdx i q 1).val = (q ⟨0, by decide⟩).val :=
  dot_S256x768_S768x128_S256x128_1_0_0_1_n_n.lhsIdx_val_of_single rfl i q
private theorem rhs_proj_0 (i : S256x128.Idx) (q : dot_S256x768_S768x128_S256x128_1_0_0_1_n_n.contr.Idx) :
    (dot_S256x768_S768x128_S256x128_1_0_0_1_n_n.rhsIdx i q 0).val = (q ⟨0, by decide⟩).val :=
  dot_S256x768_S768x128_S256x128_1_0_0_1_n_n.rhsIdx_val_of_single rfl i q
private theorem rhs_proj_1 (i : S256x128.Idx) (q : dot_S256x768_S768x128_S256x128_1_0_0_1_n_n.contr.Idx) :
    (dot_S256x768_S768x128_S256x128_1_0_0_1_n_n.rhsIdx i q 1).val = (i 1).val := by
  unfold DotDims.rhsIdx
  rw [dif_neg (show ¬(1 : Fin S768x128.rank) ∈ dot_S256x768_S768x128_S256x128_1_0_0_1_n_n.rhsBatch by decide), dif_pos (show (1 : Fin S768x128.rank) ∈ dot_S256x768_S768x128_S256x128_1_0_0_1_n_n.rhsNonContracting by decide)]
  rfl

/-- A 256×768 by 768×128 product into the zero splat, read at `(r, c)`: the sum over the 768 contracted positions. -/
private theorem mm_proj_apply {φ₁ φ₂ : FTy} (x : FVec Ideal S256x768 φ₁) (y : FVec Ideal S768x128 φ₂) (r : Fin 256) (c : Fin 128) :
    matmul dot_S256x768_S768x128_S256x128_1_0_0_1_n_n none x y (constant (F := Ideal) S256x128 .f32 0x00000000#32) (ix2 r c)
      = ∑ k : Fin 768, x (ix2 r k) * y (ix2 k c) := by
  refine (Ideal.matmul_constant_zero_apply dot_S256x768_S768x128_S256x128_1_0_0_1_n_n none x y (ix2 r c)).trans ?_
  rw [← Equiv.sum_comp (contrEquiv1 dot_S256x768_S768x128_S256x128_1_0_0_1_n_n 768 rfl rfl).symm]
  refine Finset.sum_congr rfl fun k _ => ?_
  have hk := contrEquiv1_symm_val dot_S256x768_S768x128_S256x128_1_0_0_1_n_n 768 rfl rfl k
  have el : dot_S256x768_S768x128_S256x128_1_0_0_1_n_n.lhsIdx (ix2 r c) ((contrEquiv1 dot_S256x768_S768x128_S256x128_1_0_0_1_n_n 768 rfl rfl).symm k) = ix2 r k := funext fun a => Fin.ext (by
    match a with
    | ⟨0, _⟩ => exact lhs_proj_0 _ _
    | ⟨1, _⟩ => exact (lhs_proj_1 _ _).trans hk)
  have er : dot_S256x768_S768x128_S256x128_1_0_0_1_n_n.rhsIdx (ix2 r c) ((contrEquiv1 dot_S256x768_S768x128_S256x128_1_0_0_1_n_n 768 rfl rfl).symm k) = ix2 k c := funext fun a => Fin.ext (by
    match a with
    | ⟨0, _⟩ => exact (rhs_proj_0 _ _).trans hk
    | ⟨1, _⟩ => exact rhs_proj_1 _ _)
  rw [el, er]

private theorem lhs_score_0 (i : S256x8192.Idx) (q : dot_S256x384_S384x8192_S256x8192_1_0_0_1_n_n.contr.Idx) :
    (dot_S256x384_S384x8192_S256x8192_1_0_0_1_n_n.lhsIdx i q 0).val = (i 0).val := by
  unfold DotDims.lhsIdx
  rw [dif_neg (show ¬(0 : Fin S256x384.rank) ∈ dot_S256x384_S384x8192_S256x8192_1_0_0_1_n_n.lhsBatch by decide), dif_pos (show (0 : Fin S256x384.rank) ∈ dot_S256x384_S384x8192_S256x8192_1_0_0_1_n_n.lhsNonContracting by decide)]
  rfl
private theorem lhs_score_1 (i : S256x8192.Idx) (q : dot_S256x384_S384x8192_S256x8192_1_0_0_1_n_n.contr.Idx) :
    (dot_S256x384_S384x8192_S256x8192_1_0_0_1_n_n.lhsIdx i q 1).val = (q ⟨0, by decide⟩).val :=
  dot_S256x384_S384x8192_S256x8192_1_0_0_1_n_n.lhsIdx_val_of_single rfl i q
private theorem rhs_score_0 (i : S256x8192.Idx) (q : dot_S256x384_S384x8192_S256x8192_1_0_0_1_n_n.contr.Idx) :
    (dot_S256x384_S384x8192_S256x8192_1_0_0_1_n_n.rhsIdx i q 0).val = (q ⟨0, by decide⟩).val :=
  dot_S256x384_S384x8192_S256x8192_1_0_0_1_n_n.rhsIdx_val_of_single rfl i q
private theorem rhs_score_1 (i : S256x8192.Idx) (q : dot_S256x384_S384x8192_S256x8192_1_0_0_1_n_n.contr.Idx) :
    (dot_S256x384_S384x8192_S256x8192_1_0_0_1_n_n.rhsIdx i q 1).val = (i 1).val := by
  unfold DotDims.rhsIdx
  rw [dif_neg (show ¬(1 : Fin S384x8192.rank) ∈ dot_S256x384_S384x8192_S256x8192_1_0_0_1_n_n.rhsBatch by decide), dif_pos (show (1 : Fin S384x8192.rank) ∈ dot_S256x384_S384x8192_S256x8192_1_0_0_1_n_n.rhsNonContracting by decide)]
  rfl

/-- A 256×384 by 384×8192 product into the zero splat, read at `(r, c)`: the sum over the 384 contracted positions. -/
private theorem mm_score_apply {φ₁ φ₂ : FTy} (x : FVec Ideal S256x384 φ₁) (y : FVec Ideal S384x8192 φ₂) (r : Fin 256) (c : Fin 8192) :
    matmul dot_S256x384_S384x8192_S256x8192_1_0_0_1_n_n none x y (constant (F := Ideal) S256x8192 .f32 0x00000000#32) (ix2 r c)
      = ∑ k : Fin 384, x (ix2 r k) * y (ix2 k c) := by
  refine (Ideal.matmul_constant_zero_apply dot_S256x384_S384x8192_S256x8192_1_0_0_1_n_n none x y (ix2 r c)).trans ?_
  rw [← Equiv.sum_comp (contrEquiv1 dot_S256x384_S384x8192_S256x8192_1_0_0_1_n_n 384 rfl rfl).symm]
  refine Finset.sum_congr rfl fun k _ => ?_
  have hk := contrEquiv1_symm_val dot_S256x384_S384x8192_S256x8192_1_0_0_1_n_n 384 rfl rfl k
  have el : dot_S256x384_S384x8192_S256x8192_1_0_0_1_n_n.lhsIdx (ix2 r c) ((contrEquiv1 dot_S256x384_S384x8192_S256x8192_1_0_0_1_n_n 384 rfl rfl).symm k) = ix2 r k := funext fun a => Fin.ext (by
    match a with
    | ⟨0, _⟩ => exact lhs_score_0 _ _
    | ⟨1, _⟩ => exact (lhs_score_1 _ _).trans hk)
  have er : dot_S256x384_S384x8192_S256x8192_1_0_0_1_n_n.rhsIdx (ix2 r c) ((contrEquiv1 dot_S256x384_S384x8192_S256x8192_1_0_0_1_n_n 384 rfl rfl).symm k) = ix2 k c := funext fun a => Fin.ext (by
    match a with
    | ⟨0, _⟩ => exact (rhs_score_0 _ _).trans hk
    | ⟨1, _⟩ => exact rhs_score_1 _ _)
  rw [el, er]

private theorem lhs_att_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
private theorem lhs_att_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
private theorem rhs_att_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
private theorem rhs_att_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- A 256×8192 by 8192×128 product into the zero splat, read at `(r, c)`: the sum over the 8192 contracted positions. -/
private theorem mm_att_apply {φ₁ φ₂ : FTy} (x : FVec Ideal S256x8192 φ₁) (y : FVec Ideal S8192x128 φ₂) (r : Fin 256) (c : Fin 128) :
    matmul dot_S256x8192_S8192x128_S256x128_1_0_0_1_n_n none x y (constant (F := Ideal) S256x128 .f32 0x00000000#32) (ix2 r c)
      = ∑ k : Fin 8192, x (ix2 r k) * y (ix2 k c) := by
  refine (Ideal.matmul_constant_zero_apply dot_S256x8192_S8192x128_S256x128_1_0_0_1_n_n none x y (ix2 r c)).trans ?_
  rw [← Equiv.sum_comp (contrEquiv1 dot_S256x8192_S8192x128_S256x128_1_0_0_1_n_n 8192 rfl rfl).symm]
  refine Finset.sum_congr rfl fun k _ => ?_
  have hk := contrEquiv1_symm_val dot_S256x8192_S8192x128_S256x128_1_0_0_1_n_n 8192 rfl rfl k
  have el : dot_S256x8192_S8192x128_S256x128_1_0_0_1_n_n.lhsIdx (ix2 r c) ((contrEquiv1 dot_S256x8192_S8192x128_S256x128_1_0_0_1_n_n 8192 rfl rfl).symm k) = ix2 r k := funext fun a => Fin.ext (by
    match a with
    | ⟨0, _⟩ => exact lhs_att_0 _ _
    | ⟨1, _⟩ => exact (lhs_att_1 _ _).trans hk)
  have er : dot_S256x8192_S8192x128_S256x128_1_0_0_1_n_n.rhsIdx (ix2 r c) ((contrEquiv1 dot_S256x8192_S8192x128_S256x128_1_0_0_1_n_n 8192 rfl rfl).symm k) = ix2 k c := funext fun a => Fin.ext (by
    match a with
    | ⟨0, _⟩ => exact (rhs_att_0 _ _).trans hk
    | ⟨1, _⟩ => exact rhs_att_1 _ _)
  rw [el, er]

/-! ## Three pieces laid end to end, read at an index -/

section Cat
variable {α : Type}

/-- Three `n × w` pieces laid end to end along the columns, read at `(r, k)`: the piece that holds column `k`, at
    `k` less the widths before it. -/
private theorem cat3_cols (n w W : ℕ) (hW : W = w + w + w) (a b c : (⟨2, ![n, w]⟩ : Shape).Idx → α)
    (h : Shape.Concatenates [(⟨2, ![n, w]⟩ : Shape), ⟨2, ![n, w]⟩, ⟨2, ![n, w]⟩] ⟨2, ![n, W]⟩ 1) (r : Fin n) (k : Fin W) :
    concatenate ⟨2, ![n, W]⟩ 1 [⟨⟨2, ![n, w]⟩, a⟩, ⟨⟨2, ![n, w]⟩, b⟩, ⟨⟨2, ![n, w]⟩, c⟩] h (ix2 r k)
      = cat3 w W hW (fun k => a (ix2 r k)) (fun k => b (ix2 r k)) (fun k => c (ix2 r k)) k := by
  unfold cat3
  split
  · next h1 =>
    exact concatenate_apply_piece (t := ⟨2, ![n, W]⟩) 1 [⟨⟨2, ![n, w]⟩, a⟩, ⟨⟨2, ![n, w]⟩, b⟩, ⟨⟨2, ![n, w]⟩, c⟩] h (ix2 r k) 0 (by simp) _ a rfl rfl 0 rfl (ix2 r ⟨k.val, h1⟩)
      (fun d => match d with | ⟨0, _⟩ => fun _ => rfl | ⟨1, _⟩ => fun hd => absurd rfl hd) (Nat.zero_add _)
  · next h1 =>
    split
    · next h2 =>
      exact concatenate_apply_piece (t := ⟨2, ![n, W]⟩) 1 [⟨⟨2, ![n, w]⟩, a⟩, ⟨⟨2, ![n, w]⟩, b⟩, ⟨⟨2, ![n, w]⟩, c⟩] h (ix2 r k) 1 (by simp) _ b rfl rfl w rfl (ix2 r ⟨k.val - w, by omega⟩)
        (fun d => match d with | ⟨0, _⟩ => fun _ => rfl | ⟨1, _⟩ => fun hd => absurd rfl hd)
        (show w + (k.val - w) = k.val by omega)
    · next h2 =>
      exact concatenate_apply_piece (t := ⟨2, ![n, W]⟩) 1 [⟨⟨2, ![n, w]⟩, a⟩, ⟨⟨2, ![n, w]⟩, b⟩, ⟨⟨2, ![n, w]⟩, c⟩] h (ix2 r k) 2 (by simp) _ c rfl rfl (w + w) rfl
        (ix2 r ⟨k.val - (w + w), by have := k.isLt; omega⟩)
        (fun d => match d with | ⟨0, _⟩ => fun _ => rfl | ⟨1, _⟩ => fun hd => absurd rfl hd)
        (show w + w + (k.val - (w + w)) = k.val by omega)

/-- Three `w × m` pieces laid end to end along the rows, read at `(k, c)`. -/
private theorem cat3_rows (w W m : ℕ) (hW : W = w + w + w) (a b c : (⟨2, ![w, m]⟩ : Shape).Idx → α)
    (h : Shape.Concatenates [(⟨2, ![w, m]⟩ : Shape), ⟨2, ![w, m]⟩, ⟨2, ![w, m]⟩] ⟨2, ![W, m]⟩ 0) (k : Fin W) (q : Fin m) :
    concatenate ⟨2, ![W, m]⟩ 0 [⟨⟨2, ![w, m]⟩, a⟩, ⟨⟨2, ![w, m]⟩, b⟩, ⟨⟨2, ![w, m]⟩, c⟩] h (ix2 k q)
      = cat3 w W hW (fun k => a (ix2 k q)) (fun k => b (ix2 k q)) (fun k => c (ix2 k q)) k := by
  unfold cat3
  split
  · next h1 =>
    exact concatenate_apply_piece (t := ⟨2, ![W, m]⟩) 0 [⟨⟨2, ![w, m]⟩, a⟩, ⟨⟨2, ![w, m]⟩, b⟩, ⟨⟨2, ![w, m]⟩, c⟩] h (ix2 k q) 0 (by simp) _ a rfl rfl 0 rfl (ix2 ⟨k.val, h1⟩ q)
      (fun d => match d with | ⟨0, _⟩ => fun hd => absurd rfl hd | ⟨1, _⟩ => fun _ => rfl) (Nat.zero_add _)
  · next h1 =>
    split
    · next h2 =>
      exact concatenate_apply_piece (t := ⟨2, ![W, m]⟩) 0 [⟨⟨2, ![w, m]⟩, a⟩, ⟨⟨2, ![w, m]⟩, b⟩, ⟨⟨2, ![w, m]⟩, c⟩] h (ix2 k q) 1 (by simp) _ b rfl rfl w rfl (ix2 ⟨k.val - w, by omega⟩ q)
        (fun d => match d with | ⟨0, _⟩ => fun hd => absurd rfl hd | ⟨1, _⟩ => fun _ => rfl)
        (show w + (k.val - w) = k.val by omega)
    · next h2 =>
      exact concatenate_apply_piece (t := ⟨2, ![W, m]⟩) 0 [⟨⟨2, ![w, m]⟩, a⟩, ⟨⟨2, ![w, m]⟩, b⟩, ⟨⟨2, ![w, m]⟩, c⟩] h (ix2 k q) 2 (by simp) _ c rfl rfl (w + w) rfl
        (ix2 ⟨k.val - (w + w), by have := k.isLt; omega⟩ q)
        (fun d => match d with | ⟨0, _⟩ => fun hd => absurd rfl hd | ⟨1, _⟩ => fun _ => rfl)
        (show w + w + (k.val - (w + w)) = k.val by omega)

end Cat

/-! ## The keepdims column forms and the row reductions -/

section Keepdims
variable {α : Type}

/-- A length-`a` vector cast to an `a × 1` column reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Keepdims

/-- The pattern of f32's negative infinity is the bottom of the extended reals. -/
private theorem ofBits_neg_inf : FloatOps.ofBits (F := Ideal) .f32 0xFF800000#32 = (⊥ : EReal) := by
  show Ideal.ofBits .f32 0xFF800000#32 = ⊥
  simp [Ideal.ofBits, Ideal.ieee]

/-- The index of row `r` with `n` put back on the reduced axis is `(r, n)`. -/
private theorem lift_row (r : Fin 256) (n : Fin 8192) : reduces_S256x8192_S256.lift (ix1 r) n = ix2 r n :=
  funext fun c => Fin.ext (match c with | ⟨0, _⟩ => rfl | ⟨1, _⟩ => rfl)

/-- The row maximum at row `r`: the fold of `max` from `-∞` over the row. -/
private theorem rowMaxV_apply (s : FVec Ideal S256x8192 .f32) (r : Fin 256) :
    multiReduction (F := Ideal) .maximumf [1] S256 s 0xFF800000#32 reduces_S256x8192_S256 (.inl rfl) rfl (ix1 r)
      = rowMax (fun n => s (ix2 r n)) := by
  refine (Ideal.multiReduction_maximumf_single s _ reduces_S256x8192_S256 (.inl rfl) rfl (ix1 r)).trans ?_
  show (Finset.univ : Finset (Fin 8192)).fold max (FloatOps.ofBits (F := Ideal) .f32 0xFF800000#32)
      (fun n => s (reduces_S256x8192_S256.lift (ix1 r) n)) = (Finset.univ : Finset (Fin 8192)).fold max ⊥ (fun n => s (ix2 r n))
  rw [ofBits_neg_inf]
  exact congrArg (fun f => (Finset.univ : Finset (Fin 8192)).fold max ⊥ f) (funext fun n => congrArg s (lift_row r n))

/-- The row sum at row `r`. -/
private theorem rowSumV_apply (e : FVec Ideal S256x8192 .f32) (r : Fin 256) :
    multiReduction (F := Ideal) .add [1] S256 e 0x00000000#32 reduces_S256x8192_S256 (.inl rfl) rfl (ix1 r)
      = ∑ n : Fin 8192, e (ix2 r n) := by
  refine (Ideal.multiReduction_add_single e _ reduces_S256x8192_S256 (.inl rfl) rfl (ix1 r)).trans ?_
  show ∑ n : Fin 8192, e (reduces_S256x8192_S256.lift (ix1 r) n) = ∑ n : Fin 8192, e (ix2 r n)
  exact Finset.sum_congr rfl fun n _ => congrArg e (lift_row r n)

/-! ## The four stages -/

/-- The split projection of a block of rows, as one vector. -/
private def thetaV (v0 : FVec Ideal S256x256 .f32) (v5 v7 : FVec Ideal S256x128 .bf16) (v12 : FVec Ideal S1x128 .f32) :
    FVec Ideal S256x128 .f32 :=
  addf
    (matmul dot_S256x768_S768x128_S256x128_1_0_0_1_n_n none
      (concatenate S256x768 1 [⟨S256x256, truncf .bf16 v0 bitsLt_bf16_f32⟩,
        ⟨S256x256, truncf .bf16 (subf v0 v0) bitsLt_bf16_f32⟩, ⟨S256x256, truncf .bf16 v0 bitsLt_bf16_f32⟩]
        concatenates_S256x256_S256x256_S256x256_S256x768_d1)
      (concatenate S768x128 0 [⟨S256x128, shapeCast S256x128 v5 shapeCasts_S256x128_S256x128⟩,
        ⟨S256x128, shapeCast S256x128 v5 shapeCasts_S256x128_S256x128⟩,
        ⟨S256x128, shapeCast S256x128 v7 shapeCasts_S256x128_S256x128⟩]
        concatenates_S256x128_S256x128_S256x128_S768x128_d0)
      (constant (F := Ideal) S256x128 .f32 0x00000000#32))
    (broadcastTo S256x128 (shapeCast S1x128 v12 shapeCasts_S1x128_S1x128) broadcasts_S1x128_S256x128)

/-- The scores of a block of projected rows against the packed rows, as one vector. -/
private def scoreV (θ : FVec Ideal S256x128 .f32) (v20 : FVec Ideal S8192x384 .bf16) : FVec Ideal S256x8192 .f32 :=
  matmul dot_S256x384_S384x8192_S256x8192_1_0_0_1_n_n none
    (concatenate S256x384 1 [⟨S256x128, truncf .bf16 θ bitsLt_bf16_f32⟩,
      ⟨S256x128, truncf .bf16 (subf θ θ) bitsLt_bf16_f32⟩, ⟨S256x128, truncf .bf16 θ bitsLt_bf16_f32⟩]
      concatenates_S256x128_S256x128_S256x128_S256x384_d1)
    (transpose S384x8192 [1, 0] (shapeCast S8192x384 v20 shapeCasts_S8192x384_S8192x384) transposes_S8192x384_p1_0_S384x8192)
    (constant (F := Ideal) S256x8192 .f32 0x00000000#32)

/-- The unnormalised softmax weights of a block of score rows: `exp (s - rowmax s)`. -/
private def expV (s : FVec Ideal S256x8192 .f32) : FVec Ideal S256x8192 .f32 :=
  exp (subf s (broadcastTo S256x8192
    (shapeCast S256x1 (multiReduction (F := Ideal) .maximumf [1] S256 s 0xFF800000#32 reduces_S256x8192_S256 (.inl rfl) rfl)
      shapeCasts_S256_S256x1) broadcasts_S256x1_S256x8192))

/-- The weights against `g`, divided by the weights' row sums. -/
private def attnV (e : FVec Ideal S256x8192 .f32) (v22 : FVec Ideal S8192x128 .bf16) : FVec Ideal S256x128 .f32 :=
  divf
    (matmul dot_S256x8192_S8192x128_S256x128_1_0_0_1_n_n none (truncf .bf16 e bitsLt_bf16_f32)
      (shapeCast S8192x128 v22 shapeCasts_S8192x128_S8192x128) (constant (F := Ideal) S256x128 .f32 0x00000000#32))
    (broadcastTo S256x128
      (shapeCast S256x1 (multiReduction (F := Ideal) .add [1] S256 e 0x00000000#32 reduces_S256x8192_S256 (.inl rfl) rfl)
        shapeCasts_S256_S256x1) broadcasts_S256x1_S256x128)

/-- The attended block is the composition of the four stages. -/
private theorem pay2_eq (v0 : Vec Ideal S256x256 .f32) (v5 v7 : Vec Ideal S256x128 .bf16) (v12 : Vec Ideal S1x128 .f32)
    (v20 : Vec Ideal S8192x384 .bf16) (v22 : Vec Ideal S8192x128 .bf16) :
    k1_pay2 (F := Ideal) v0 v5 v7 v12 v20 v22 = attnV (expV (scoreV (thetaV v0 v5 v7 v12) v20)) v22 := rfl

/-- The split projection at `(r, c)`. -/
private theorem thetaV_apply (v0 : FVec Ideal S256x256 .f32) (v5 v7 : FVec Ideal S256x128 .bf16) (v12 : FVec Ideal S1x128 .f32)
    (r : Fin 256) (c : Fin 128) :
    thetaV v0 v5 v7 v12 (ix2 r c)
      = projSplitRow (fun k => v0 (ix2 r k)) (cur2 v5) (cur2 v7) (fun j' => v12 (ix2 (0 : Fin 1) j')) c := by
  unfold thetaV projSplitRow
  rw [shapeCast_self v5 _, shapeCast_self v7 _, shapeCast_self v12 _]
  refine (addf_apply _ _ _).trans ?_
  refine congrArg₂ (· + ·) ?_ (broadcastTo_1b_ab_apply _ _ r c)
  refine (mm_proj_apply _ _ r c).trans (Finset.sum_congr rfl fun k _ => ?_)
  exact congrArg₂ (· * ·) (cat3_cols 256 256 768 rfl _ _ _ _ r k) (cat3_rows 256 768 128 rfl _ _ _ _ k c)

/-- The score of row `r` against packed row `n`. -/
private theorem scoreV_apply (θ : FVec Ideal S256x128 .f32) (v20 : FVec Ideal S8192x384 .bf16) (r : Fin 256) (n : Fin 8192) :
    scoreV θ v20 (ix2 r n) = scoreSplitRow (fun k => θ (ix2 r k)) (cur2 v20) n := by
  unfold scoreV scoreSplitRow
  rw [shapeCast_self v20 _]
  refine (mm_score_apply _ _ r n).trans (Finset.sum_congr rfl fun k _ => ?_)
  exact congrArg₂ (· * ·) (cat3_cols 256 128 384 rfl _ _ _ _ r k) (transpose_ix2_apply _ _ k n)

/-- The unnormalised weight at `(r, n)`. -/
private theorem expV_apply (s : FVec Ideal S256x8192 .f32) (r : Fin 256) (n : Fin 8192) :
    expV s (ix2 r n) = expRow (fun n => s (ix2 r n)) n := by
  unfold expV expRow
  exact congrArg (fun m => Ideal.exp (s (ix2 r n) - m))
    ((broadcastTo_a1_ab_apply _ _ r n).trans ((shapeCast_a_a1_apply _ _ r 0).trans (rowMaxV_apply s r)))

/-- The attended entry at `(r, c)` from the weights: their sum against `g`, divided by their sum. -/
private theorem attnV_apply (e : FVec Ideal S256x8192 .f32) (v22 : FVec Ideal S8192x128 .bf16) (r : Fin 256) (c : Fin 128) :
    attnV e v22 (ix2 r c) = Ideal.div (∑ n : Fin 8192, e (ix2 r n) * v22 (ix2 n c)) (∑ n : Fin 8192, e (ix2 r n)) := by
  unfold attnV
  rw [shapeCast_self v22 _]
  refine (divf_apply _ _ _).trans ?_
  exact congrArg₂ Ideal.div (mm_att_apply _ _ r c)
    ((broadcastTo_a1_ab_apply _ _ r c).trans ((shapeCast_a_a1_apply _ _ r 0).trans (rowSumV_apply e r)))

/-- Entry `(r, j)` of the attended block: the split projection of row `r`, its scores against the packed rows,
    the softmax weights, their sum against `g`, divided by the normaliser. -/
theorem pay_attend (v0 : Vec Ideal S256x256 .f32) (v5 v7 : Vec Ideal S256x128 .bf16) (v12 : Vec Ideal S1x128 .f32)
    (v20 : Vec Ideal S8192x384 .bf16) (v22 : Vec Ideal S8192x128 .bf16) (r : Fin 256) (j : Fin 128) :
    k1_pay2 (F := Ideal) v0 v5 v7 v12 v20 v22 (ix2 r j)
      = attendLate (scoreSplitRow (projSplitRow (fun k => v0 (ix2 r k)) (cur2 v5) (cur2 v7) (fun j' => v12 (ix2 (0 : Fin 1) j')))
          (cur2 v20)) (cur2 v22) j := by
  rw [pay2_eq]
  refine (attnV_apply _ _ r j).trans ?_
  have hθ : (fun k => thetaV v0 v5 v7 v12 (ix2 r k))
      = projSplitRow (fun k => v0 (ix2 r k)) (cur2 v5) (cur2 v7) (fun j' => v12 (ix2 (0 : Fin 1) j')) :=
    funext fun k => thetaV_apply v0 v5 v7 v12 r k
  have hs : (fun n => scoreV (thetaV v0 v5 v7 v12) v20 (ix2 r n))
      = scoreSplitRow (projSplitRow (fun k => v0 (ix2 r k)) (cur2 v5) (cur2 v7) (fun j' => v12 (ix2 (0 : Fin 1) j'))) (cur2 v20) :=
    funext fun n => (scoreV_apply _ v20 r n).trans (congrArg (fun θ => scoreSplitRow θ (cur2 v20) n) hθ)
  have he : ∀ n : Fin 8192, expV (scoreV (thetaV v0 v5 v7 v12) v20) (ix2 r n)
      = expRow (scoreSplitRow (projSplitRow (fun k => v0 (ix2 r k)) (cur2 v5) (cur2 v7) (fun j' => v12 (ix2 (0 : Fin 1) j'))) (cur2 v20)) n :=
    fun n => (expV_apply _ r n).trans (congrArg (fun s => expRow s n) hs)
  unfold attendLate rowSum
  exact congrArg₂ Ideal.div (Finset.sum_congr rfl fun n _ => congrArg (· * v22 (ix2 n j)) (he n))
    (Finset.sum_congr rfl fun n _ => he n)

end Cert.KernelIdeal.Pay

end
-- ==== Proof.Region1.lean ====
/- The attention region's output array after its run, entry by entry, at any entry contents. -/
import proofs.«403041_j12627203850615_3_alg».proof.Proof.Gen.KernelIdeal.Frame
import proofs.«403041_j12627203850615_3_alg».proof.Proof.PayProj
import proofs.«403041_j12627203850615_3_alg».proof.Proof.PayAttn

noncomputable section

set_option maxRecDepth 16384
open scoped BigOperators

namespace Cert.KernelIdeal.Regions

open Cert.KernelIdeal Cert.KernelIdeal.Gen Cert.Attn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The index maps, decided over the grid -/

/-- The zero offsets of a whole-buffer access are the constant zero function. -/
private theorem zero_off : (![0, 0] : Fin 2 → Nat) = fun _ => 0 := funext fun a => by fin_cases a <;> rfl

/-- At point t the row-blocked windows (the input rows and the result rows) sit at block (t, 0); every other
    window is its whole array, block (0, 0). -/
private theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row r of the block at point t is row 256 t + r of the array. -/
private def rowAt (t : Fin cfg1.N) (r : Fin 256) : Fin 8192 :=
  ⟨t.val * 256 + r.val, by have h1 := t.isLt; have h2 : cfg1.N = 32 := N_1; have h3 := r.isLt; omega⟩

/-! ## One block of rows, from the blocks the body loads -/

/-- The stored payload at (r, k) is the row function of row r of the loaded input block and of the loaded
    weight, packed and g blocks: the output projection over the attended row. -/
private theorem row_of_blocks (X0 : Vec Ideal S256x256 .f32) (X1 X2 : Vec Ideal S256x128 .bf16) (X3 : Vec Ideal S1x128 .f32)
    (X4 : Vec Ideal S8192x384 .bf16) (X5 : Vec Ideal S8192x128 .bf16) (X6 : Vec Ideal S128x256 .f32) (X7 : Vec Ideal S1x256 .f32)
    (r k : Fin 256) :
    k1_pay1 (F := Ideal) X0 (k1_pay2 X0 X1 X2 X3 X4 X5) (k1_pay3 X6) X7 (ix2 r k)
      = attnRow (fun k' => X0 (ix2 r k')) (cur2 X1) (cur2 X2) (fun j => X3 (ix2 (0 : Fin 1) j)) (cur2 X4) (cur2 X5) (cur2 X6)
          (fun d => X7 (ix2 (0 : Fin 1) d)) k := by
  refine (Pay.pay_out X0 (k1_pay2 X0 X1 X2 X3 X4 X5) X6 X7 r k).trans ?_
  unfold attnRow
  exact congrArg (fun y => outRow y (cur2 X6) (fun c' => X7 (ix2 (0 : Fin 1) c')) (fun k' => X0 (ix2 r k')) k)
    (funext fun j => Pay.pay_attend X0 X1 X2 X3 X4 X5 r j)

/-! ## The loaded blocks, read off the arrays -/

/-- Entry (r, k) of the input block at point t is entry (256 t + r, k) of the input array. -/
private theorem x_block (c : Dev nD) (t : Fin cfg1.N) (r k : Fin 256) :
    (iblk1 (F := Ideal) V c 0 t : Vec Ideal S256x256 .f32) (ix2 r k)
      = (V c main_arg0 : S8192x256.Idx → EReal) (ix2 (rowAt t r) k) := by
  obtain ⟨e0, e1, -⟩ := block_index t
  show (V c main_arg0 : S8192x256.Idx → EReal) (((cfg1.win 0).blk t).view.emb (ix2 r k)) = _
  refine congrArg (V c main_arg0 : S8192x256.Idx → EReal) ?_
  funext a; apply Fin.ext
  match a with
  | ⟨0, _⟩ => show win1_0.index t (0 : Fin 2) * 256 + 1 * r.val = t.val * 256 + r.val; omega
  | ⟨1, _⟩ => show win1_0.index t (1 : Fin 2) * 256 + 1 * k.val = k.val; omega

/-- The high part of the query weight is loaded whole. -/
private theorem whi_block (c : Dev nD) (t : Fin cfg1.N) :
    (iblk1 (F := Ideal) V c 1 t : Vec Ideal S256x128 .bf16) = (V c main_v0 : S256x128.Idx → EReal) := by
  obtain ⟨-, -, e0, e1, -⟩ := block_index t
  funext y
  show (V c main_v0 : S256x128.Idx → EReal) (((cfg1.win 1).blk t).view.emb y) = _
  refine congrArg (V c main_v0 : S256x128.Idx → EReal) ?_
  funext a; apply Fin.ext
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The residual part of the query weight is loaded whole. -/
private theorem wlo_block (c : Dev nD) (t : Fin cfg1.N) :
    (iblk1 (F := Ideal) V c 2 t : Vec Ideal S256x128 .bf16) = (V c main_v3 : S256x128.Idx → EReal) := by
  obtain ⟨-, -, -, -, e0, e1, -⟩ := block_index t
  funext y
  show (V c main_v3 : S256x128.Idx → EReal) (((cfg1.win 2).blk t).view.emb y) = _
  refine congrArg (V c main_v3 : S256x128.Idx → EReal) ?_
  funext a; apply Fin.ext
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The query bias is loaded whole. -/
private theorem thb_block (c : Dev nD) (t : Fin cfg1.N) :
    (iblk1 (F := Ideal) V c 3 t : Vec Ideal S1x128 .f32) = (V c main_v10 : S1x128.Idx → EReal) := by
  obtain ⟨-, -, -, -, -, -, e0, e1, -⟩ := block_index t
  funext y
  show (V c main_v10 : S1x128.Idx → EReal) (((cfg1.win 3).blk t).view.emb y) = _
  refine congrArg (V c main_v10 : S1x128.Idx → EReal) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The packed key rows are loaded whole. -/
private theorem packed_block (c : Dev nD) (t : Fin cfg1.N) :
    (iblk1 (F := Ideal) V c 4 t : Vec Ideal S8192x384 .bf16) = (V c main_v12_0 : S8192x384.Idx → EReal) := by
  obtain ⟨-, -, -, -, -, -, -, -, e0, e1, -⟩ := block_index t
  funext y
  show (V c main_v12_0 : S8192x384.Idx → EReal) (((cfg1.win 4).blk t).view.emb y) = _
  refine congrArg (V c main_v12_0 : S8192x384.Idx → EReal) ?_
  funext a; apply Fin.ext
  match a with
  | ⟨0, _⟩ => show win1_4.index t (0 : Fin 2) * 8192 + 1 * (y 0).val = (y 0).val; omega
  | ⟨1, _⟩ => show win1_4.index t (1 : Fin 2) * 384 + 1 * (y 1).val = (y 1).val; omega

/-- The value rows are loaded whole. -/
private theorem g_block (c : Dev nD) (t : Fin cfg1.N) :
    (iblk1 (F := Ideal) V c 5 t : Vec Ideal S8192x128 .bf16) = (V c main_v12_1 : S8192x128.Idx → EReal) := by
  obtain ⟨-, -, -, -, -, -, -, -, -, -, e0, e1, -⟩ := block_index t
  funext y
  show (V c main_v12_1 : S8192x128.Idx → EReal) (((cfg1.win 5).blk t).view.emb y) = _
  refine congrArg (V c main_v12_1 : S8192x128.Idx → EReal) ?_
  funext a; apply Fin.ext
  match a with
  | ⟨0, _⟩ => show win1_5.index t (0 : Fin 2) * 8192 + 1 * (y 0).val = (y 0).val; omega
  | ⟨1, _⟩ => show win1_5.index t (1 : Fin 2) * 128 + 1 * (y 1).val = (y 1).val; omega

/-- The output weight is loaded whole. -/
private theorem ww_block (c : Dev nD) (t : Fin cfg1.N) :
    (iblk1 (F := Ideal) V c 6 t : Vec Ideal S128x256 .f32) = (V c main_arg7 : S128x256.Idx → EReal) := by
  obtain ⟨-, -, -, -, -, -, -, -, -, -, -, -, e0, e1, -⟩ := block_index t
  funext y
  show (V c main_arg7 : S128x256.Idx → EReal) (((cfg1.win 6).blk t).view.emb y) = _
  refine congrArg (V c main_arg7 : S128x256.Idx → EReal) ?_
  funext a; apply Fin.ext
  match a with
  | ⟨0, _⟩ => show win1_6.index t (0 : Fin 2) * 128 + 1 * (y 0).val = (y 0).val; omega
  | ⟨1, _⟩ => show win1_6.index t (1 : Fin 2) * 256 + 1 * (y 1).val = (y 1).val; omega

/-- The output bias is loaded whole. -/
private theorem wb_block (c : Dev nD) (t : Fin cfg1.N) :
    (iblk1 (F := Ideal) V c 7 t : Vec Ideal S1x256 .f32) = (V c main_v11 : S1x256.Idx → EReal) := by
  obtain ⟨-, -, -, -, -, -, -, -, -, -, -, -, -, -, e0, e1, -⟩ := block_index t
  funext y
  show (V c main_v11 : S1x256.Idx → EReal) (((cfg1.win 7).blk t).view.emb y) = _
  refine congrArg (V c main_v11 : S1x256.Idx → EReal) ?_
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega

/-- Entry (r, k) of the result block at point t sits at entry (256 t + r, k) of the result array. -/
private theorem out_emb (t : Fin cfg1.N) (r k : Fin 256) :
    (((cfg1.win 8).blk t).view.emb (ix2 r k) : S8192x256.Idx) = ix2 (rowAt t r) k := by
  obtain ⟨-, -, -, -, -, -, -, -, -, -, -, -, -, -, -, -, e0, e1⟩ := block_index t
  funext a; apply Fin.ext
  match a with
  | ⟨0, _⟩ => show win1_8.index t (0 : Fin 2) * 256 + 1 * r.val = t.val * 256 + r.val; omega
  | ⟨1, _⟩ => show win1_8.index t (1 : Fin 2) * 256 + 1 * k.val = k.val; omega

/-! ## The whole result array -/

/-- Entry (n, k) of the result: the row function of row n of the input against the whole arrays. -/
private def attnMat (c : Dev nD) (n : Fin 8192) (k : Fin 256) : EReal :=
  attnRow (fun k' => (V c main_arg0 : S8192x256.Idx → EReal) (ix2 n k'))
    (cur2 (V c main_v0 : S256x128.Idx → EReal)) (cur2 (V c main_v3 : S256x128.Idx → EReal))
    (fun j => (V c main_v10 : S1x128.Idx → EReal) (ix2 (0 : Fin 1) j))
    (cur2 (V c main_v12_0 : S8192x384.Idx → EReal)) (cur2 (V c main_v12_1 : S8192x128.Idx → EReal))
    (cur2 (V c main_arg7 : S128x256.Idx → EReal)) (fun d => (V c main_v11 : S1x256.Idx → EReal) (ix2 (0 : Fin 1) d)) k

/-- The same as one function of the array index. -/
private def attnArr (c : Dev nD) : S8192x256.Idx → EReal := fun i => attnMat V c (i 0) (i 1)

/-- What point t writes back is block t of that array. -/
private theorem flushed_out (c : Dev nD) (t : Fin cfg1.N) :
    (dat1 (F := Ideal) V c).flushed 8 t = ((cfg1.win 8).blk t).view.read (Elt Ideal) (attnArr V c) := by
  show (cfg1.win 8).cut (grid1.coords t) ((dat1 (F := Ideal) V c).after 8 t) = _
  rw [after1_8]
  unfold out1_8
  rw [View.canon_unit_zero zero_off]
  simp only [View.ld_unit_zero (S := S256x256) zero_off, View.ld_unit_zero (S := S256x128) zero_off,
    View.ld_unit_zero (S := S1x128) zero_off, View.ld_unit_zero (S := S8192x384) zero_off,
    View.ld_unit_zero (S := S8192x128) zero_off, View.ld_unit_zero (S := S128x256) zero_off,
    View.ld_unit_zero (S := S1x256) zero_off]
  funext j
  obtain ⟨r, k, rfl⟩ : ∃ (r : Fin 256) (k : Fin 256), j = ix2 r k := ⟨j 0, j 1, eq_ix2 j⟩
  refine (row_of_blocks (iblk1 V c 0 t) (iblk1 V c 1 t) (iblk1 V c 2 t) (iblk1 V c 3 t) (iblk1 V c 4 t) (iblk1 V c 5 t)
    (iblk1 V c 6 t) (iblk1 V c 7 t) r k).trans ?_
  rw [whi_block V c t, wlo_block V c t, thb_block V c t, packed_block V c t, g_block V c t, ww_block V c t, wb_block V c t,
    show (fun k' => (iblk1 (F := Ideal) V c 0 t : Vec Ideal S256x256 .f32) (ix2 r k'))
      = fun k' => (V c main_arg0 : S8192x256.Idx → EReal) (ix2 (rowAt t r) k') from funext fun k' => x_block V c t r k']
  show _ = attnArr V c (((cfg1.win 8).blk t).view.emb (ix2 r k))
  rw [out_emb t r k]
  rfl

/-! ## The blocks tile the array -/

/-- An index of the array is in point t's block iff each coordinate is in the block's range on its axis. -/
private theorem mem_out_blk (t : Fin cfg1.N) (i : S8192x256.Idx) :
    i ∈ ((cfg1.win 8).blk t).view.set
      ↔ ∀ a : Fin 2, win1_8.index t a * S256x256.size a ≤ (i a).val ∧ (i a).val < win1_8.index t a * S256x256.size a + S256x256.size a := by
  show i ∈ ((View.whole main_v13).slice (win1_8.rect t)).set ↔ _
  rw [View.set_slice_whole, Rect.mem_set_unit]
  exact Iff.rfl

/-- Row n is in the block of point n / 256, and every point writes back. -/
private theorem out_cover (i : S8192x256.Idx) :
    ∃ t : Fin cfg1.N, (cfg1.win 8).flush t = true ∧ i ∈ ((cfg1.win 8).blk t).view.set := by
  have hi0 : (i 0).val < 8192 := (i 0).isLt
  have hi1 : (i 1).val < 256 := (i 1).isLt
  have hlt : (i 0).val / 256 < cfg1.N := Nat.lt_of_lt_of_eq (by omega : (i 0).val / 256 < 32) N_1.symm
  obtain ⟨-, -, -, -, -, -, -, -, -, -, -, -, -, -, -, -, e0, e1⟩ := block_index ⟨(i 0).val / 256, hlt⟩
  have e0' : win1_8.index ⟨(i 0).val / 256, hlt⟩ (0 : Fin 2) = (i 0).val / 256 := e0
  refine ⟨⟨(i 0).val / 256, hlt⟩, flush1_8 _, ?_⟩
  rw [mem_out_blk]
  intro a
  match a with
  | ⟨0, _⟩ =>
    show win1_8.index ⟨(i 0).val / 256, hlt⟩ (0 : Fin 2) * 256 ≤ (i 0).val
      ∧ (i 0).val < win1_8.index ⟨(i 0).val / 256, hlt⟩ (0 : Fin 2) * 256 + 256
    omega
  | ⟨1, _⟩ =>
    show win1_8.index ⟨(i 0).val / 256, hlt⟩ (1 : Fin 2) * 256 ≤ (i 1).val
      ∧ (i 1).val < win1_8.index ⟨(i 0).val / 256, hlt⟩ (1 : Fin 2) * 256 + 256
    omega

/-- So the result array ends holding the row function of every row. -/
private theorem out_array (c : Dev nD) : (dat1 (F := Ideal) V c).arrAt 8 cfg1.N = attnArr V c :=
  (dat1 (F := Ideal) V c).arrAt_eq_of_cover 8 (attnArr V c) (fun t _ => flushed_out V c t) out_cover

/-- After the attention region, entry `(q, c')` of the result is the kernel's row function of row `q` of the input
    and of the whole weight, packed and `g` arrays as the region found them. -/
theorem region1_out_apply (c : Dev nD) (q : Fin 8192) (c' : Fin 256) :
    ((dat1 (F := Ideal) V c).arrAt 8 cfg1.N : S8192x256.Idx → EReal) (ix2 q c')
      = attnRow (fun k => (V c main_arg0 : S8192x256.Idx → EReal) (ix2 q k))
          (cur2 (V c main_v0 : S256x128.Idx → EReal)) (cur2 (V c main_v3 : S256x128.Idx → EReal))
          (fun j => (V c main_v10 : S1x128.Idx → EReal) (ix2 (0 : Fin 1) j))
          (cur2 (V c main_v12_0 : S8192x384.Idx → EReal)) (cur2 (V c main_v12_1 : S8192x128.Idx → EReal))
          (cur2 (V c main_arg7 : S128x256.Idx → EReal)) (fun d => (V c main_v11 : S1x256.Idx → EReal) (ix2 (0 : Fin 1) d)) c' := by
  exact (congrFun (out_array V c) (ix2 q c')).trans rfl

end Cert.KernelIdeal.Regions

end
-- ==== Proof.HostVals.lean ====
/- The buffer contents at the two regions' entries and at the return, read back to the launch memory. -/
import proofs.«403041_j12627203850615_3_alg».proof.Proof.Gen.KernelIdeal.Frame
import proofs.«403041_j12627203850615_3_alg».proof.Proof.Spec

noncomputable section

set_option maxRecDepth 16384

namespace Cert.KernelIdeal.Host

open Cert.KernelIdeal Cert.KernelIdeal.Gen Cert.Attn
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The `θ` weight as launched, as a function into the extended reals. -/
abbrev thw (c : Dev nD) : S256x128.Idx → EReal := m ((c : Thread nD τ).loc main_arg3)
/-- The `φ` weight as launched, as a function into the extended reals. -/
abbrev phw (c : Dev nD) : S256x128.Idx → EReal := m ((c : Thread nD τ).loc main_arg5)

/-- A vector laid out as one row: entry `(0, i)` of the row is entry `i` of the vector, the two having the same
    row-major position `i`. -/
private theorem row_of_vec_apply {α : Type} {a : ℕ} (x : (⟨1, ![a]⟩ : Shape).Idx → α)
    (h : (⟨1, ![a]⟩ : Shape).ShapeCasts ⟨2, ![1, a]⟩) (i : Fin a) :
    shapeCast ⟨2, ![1, a]⟩ x h (ix2 (0 : Fin 1) i) = x (ix1 i) := by
  unfold shapeCast
  refine congrArg x (Shape.reshapeEquiv_eq_of_rowMajor h ?_)
  rw [Shape.rowMajor_val_two, Shape.rowMajor_val_one]
  show i.val = 0 * a + i.val
  omega

/-! ## At the projection region's entry (after the host stretch) -/

theorem V1_main_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.unary_writes, StableHlo.binary_writes, StableHlo.reshape_writes, Finset.mem_singleton]
      repeat' apply And.intro
      all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.Forall, StableHlo.unary_writes, StableHlo.binary_writes, StableHlo.reshape_writes, Finset.mem_singleton]
      repeat' apply And.intro
      all_goals exact StableHlo.devRef_ne_of_ne (by decide)))).trans rfl
theorem V1_main_arg7 (c : Dev nD) : V1 m ρ c main_arg7 = m ((c : Thread nD τ).loc main_arg7) :=
  (StableHlo.after_of_forall_not_mem (b := Proc.devRef .tc main_arg7) _ _ (List.forall_iff_forall_mem.mp (by
      simp only [hostOps0, List.Forall, StableHlo.unary_writes, StableHlo.binary_writes, StableHlo.reshape_writes, Finset.mem_singleton]
      repeat' apply And.intro
      all_goals exact StableHlo.devRef_ne_of_ne (by decide)))).trans rfl
/-- The leading part of a weight is the weight: a change of format is the identity on the extended reals. -/
theorem V1_main_v0 (c : Dev nD) :
    (V1 m ρ c main_v0 : S256x128.Idx → EReal) = thw m c := by
  dsimp only [V1, W1, W0]
  after_results
  rfl
/-- The residual part of a weight is `w - w`. -/
theorem V1_main_v3 (c : Dev nD) (i : S256x128.Idx) :
    (V1 m ρ c main_v3 : S256x128.Idx → EReal) i = thw m c i - thw m c i := by
  dsimp only [V1, W1, W0]
  after_results
  rfl
theorem V1_main_v4 (c : Dev nD) :
    (V1 m ρ c main_v4 : S256x128.Idx → EReal) = phw m c := by
  dsimp only [V1, W1, W0]
  after_results
  rfl
theorem V1_main_v7 (c : Dev nD) (i : S256x128.Idx) :
    (V1 m ρ c main_v7 : S256x128.Idx → EReal) i = phw m c i - phw m c i := by
  dsimp only [V1, W1, W0]
  after_results
  rfl
/-- A bias as one row: entry `(0, j)` of the reshaped array is entry `j` of the bias. -/
theorem V1_main_v8 (c : Dev nD) (j : Fin 128) :
    (V1 m ρ c main_v8 : S1x128.Idx → EReal) (ix2 (0 : Fin 1) j) = (m ((c : Thread nD τ).loc main_arg6) : S128.Idx → EReal) (ix1 j) := by
  dsimp only [V1, W1, W0]
  after_results
  exact row_of_vec_apply _ _ j
theorem V1_main_v9 (c : Dev nD) (j : Fin 128) :
    (V1 m ρ c main_v9 : S1x128.Idx → EReal) (ix2 (0 : Fin 1) j) = (m ((c : Thread nD τ).loc main_arg2) : S128.Idx → EReal) (ix1 j) := by
  dsimp only [V1, W1, W0]
  after_results
  exact row_of_vec_apply _ _ j
theorem V1_main_v10 (c : Dev nD) (j : Fin 128) :
    (V1 m ρ c main_v10 : S1x128.Idx → EReal) (ix2 (0 : Fin 1) j) = (m ((c : Thread nD τ).loc main_arg4) : S128.Idx → EReal) (ix1 j) := by
  dsimp only [V1, W1, W0]
  after_results
  exact row_of_vec_apply _ _ j
theorem V1_main_v11 (c : Dev nD) (d : Fin 256) :
    (V1 m ρ c main_v11 : S1x256.Idx → EReal) (ix2 (0 : Fin 1) d) = (m ((c : Thread nD τ).loc main_arg8) : S256.Idx → EReal) (ix1 d) := by
  dsimp only [V1, W1, W0]
  after_results
  exact row_of_vec_apply _ _ d

/-! ## At the attention region's entry (after the projection region) -/

theorem V2_main_arg0 (c : Dev nD) : V2 m ρ c main_arg0 = V1 m ρ c main_arg0 :=
  (W2_arr m ρ c 0).trans (((dat0 (V1 m ρ) c).arrAt_in 0 rfl _).trans (A_eq0 (V1 m ρ) c 0))
theorem V2_main_arg7 (c : Dev nD) : V2 m ρ c main_arg7 = V1 m ρ c main_arg7 :=
  W2_of_ne m ρ c main_arg7 (by decide)
theorem V2_main_v0 (c : Dev nD) : V2 m ρ c main_v0 = V1 m ρ c main_v0 :=
  W2_of_ne m ρ c main_v0 (by decide)
theorem V2_main_v3 (c : Dev nD) : V2 m ρ c main_v3 = V1 m ρ c main_v3 :=
  W2_of_ne m ρ c main_v3 (by decide)
theorem V2_main_v10 (c : Dev nD) : V2 m ρ c main_v10 = V1 m ρ c main_v10 :=
  W2_of_ne m ρ c main_v10 (by decide)
theorem V2_main_v11 (c : Dev nD) : V2 m ρ c main_v11 = V1 m ρ c main_v11 :=
  W2_of_ne m ρ c main_v11 (by decide)
/-- The packed array the attention region reads is what the projection region's write-backs left. -/
theorem V2_main_v12_0 (c : Dev nD) :
    (V2 m ρ c main_v12_0 : S8192x384.Idx → EReal) = ((dat0 (V1 m ρ) c).arrAt 6 cfg0.N : S8192x384.Idx → EReal) :=
  W2_arr m ρ c 6
theorem V2_main_v12_1 (c : Dev nD) :
    (V2 m ρ c main_v12_1 : S8192x128.Idx → EReal) = ((dat0 (V1 m ρ) c).arrAt 7 cfg0.N : S8192x128.Idx → EReal) :=
  W2_arr m ρ c 7

/-! ## At the return -/

/-- The result array at the return is what the attention region's write-backs left. -/
theorem W3_main_v13 (c : Dev nD) :
    (W3 m ρ c (Proc.devRef .tc main_v13) : S8192x256.Idx → EReal) = ((dat1 (V2 m ρ) c).arrAt 8 cfg1.N : S8192x256.Idx → EReal) :=
  W3_arr m ρ c 8

end Cert.KernelIdeal.Host

end
-- ==== Proof.KernelValue.lean ====
/-
  The kernel's result, entry by entry, as a function of the nine argument arrays: the kernel's arrangement of the
  attention block (`Cert.Attn.kerOut`).

  The result array at the return is what the attention region's write-backs leave.  That region reads row `q` of the input,
  the split `θ` weight and bias the host stretch prepared (leading part `w`, residual `w - w`, the bias as one row),
  the packed `φ` rows and the `g` rows the projection region left, and the output weight and bias; the projection region
  in turn read the input, the split `φ` weight, and the `g` weight, as the host stretch left them.  Walking each of those
  back to the launch memory turns the attention region's row function into `kerOut` of the arguments.
-/
import proofs.«403041_j12627203850615_3_alg».proof.Proof.Region0
import proofs.«403041_j12627203850615_3_alg».proof.Proof.Region1
import proofs.«403041_j12627203850615_3_alg».proof.Proof.HostVals

noncomputable section

set_option maxRecDepth 16384
open scoped BigOperators

namespace Cert.KernelIdeal.Result

open Cert.KernelIdeal Cert.KernelIdeal.Gen Cert.Attn
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! The nine arguments as launched, each as a function into the extended reals. -/
abbrev xA (c : Dev nD) : S8192x256.Idx → EReal := m ((c : Thread nD τ).loc main_arg0)
abbrev gwA (c : Dev nD) : S256x128.Idx → EReal := m ((c : Thread nD τ).loc main_arg1)
abbrev gbA (c : Dev nD) : S128.Idx → EReal := m ((c : Thread nD τ).loc main_arg2)
abbrev thwA (c : Dev nD) : S256x128.Idx → EReal := m ((c : Thread nD τ).loc main_arg3)
abbrev thbA (c : Dev nD) : S128.Idx → EReal := m ((c : Thread nD τ).loc main_arg4)
abbrev phwA (c : Dev nD) : S256x128.Idx → EReal := m ((c : Thread nD τ).loc main_arg5)
abbrev phbA (c : Dev nD) : S128.Idx → EReal := m ((c : Thread nD τ).loc main_arg6)
abbrev WwA (c : Dev nD) : S128x256.Idx → EReal := m ((c : Thread nD τ).loc main_arg7)
abbrev WbA (c : Dev nD) : S256.Idx → EReal := m ((c : Thread nD τ).loc main_arg8)

/-- Row `n` of the packed array the attention region reads: the packed split `φ` projection of row `n` of the input. -/
theorem packed_row (c : Dev nD) (n : Fin 8192) :
    cur2 (V2 m ρ c main_v12_0 : S8192x384.Idx → EReal) n
      = packRow (projSplitRow (cur2 (xA m c) n) (cur2 (phwA m c)) (fun k j => cur2 (phwA m c) k j - cur2 (phwA m c) k j) (cur1 (phbA m c))) := by
  funext k
  show (V2 m ρ c main_v12_0 : S8192x384.Idx → EReal) (ix2 n k) = _
  rw [Host.V2_main_v12_0 m ρ c, Regions.region0_phi_apply (V1 m ρ) c n k]
  have e0 : (fun k' => (V1 m ρ c main_arg0 : S8192x256.Idx → EReal) (ix2 n k')) = cur2 (xA m c) n := by
    rw [Host.V1_main_arg0 m ρ c]
  have e1 : cur2 (V1 m ρ c main_v4 : S256x128.Idx → EReal) = cur2 (phwA m c) := by
    rw [Host.V1_main_v4 m ρ c]
  have e2 : cur2 (V1 m ρ c main_v7 : S256x128.Idx → EReal) = fun k j => cur2 (phwA m c) k j - cur2 (phwA m c) k j := by
    funext k j; exact Host.V1_main_v7 m ρ c (ix2 k j)
  have e3 : (fun j => (V1 m ρ c main_v8 : S1x128.Idx → EReal) (ix2 (0 : Fin 1) j)) = cur1 (phbA m c) := by
    funext j; exact Host.V1_main_v8 m ρ c j
  rw [e0, e1, e2, e3]

/-- Row `n` of the `g` array the attention region reads: row `n` of the input times the `g` weight plus its bias. -/
theorem g_row (c : Dev nD) (n : Fin 8192) :
    cur2 (V2 m ρ c main_v12_1 : S8192x128.Idx → EReal) n = projRow (cur2 (xA m c) n) (cur2 (gwA m c)) (cur1 (gbA m c)) := by
  funext j
  show (V2 m ρ c main_v12_1 : S8192x128.Idx → EReal) (ix2 n j) = _
  rw [Host.V2_main_v12_1 m ρ c, Regions.region0_g_apply (V1 m ρ) c n j]
  have e0 : (fun k => (V1 m ρ c main_arg0 : S8192x256.Idx → EReal) (ix2 n k)) = cur2 (xA m c) n := by
    rw [Host.V1_main_arg0 m ρ c]
  have e1 : cur2 (V1 m ρ c main_arg1 : S256x128.Idx → EReal) = cur2 (gwA m c) := by
    rw [Host.V1_main_arg1 m ρ c]
  have e2 : (fun j' => (V1 m ρ c main_v9 : S1x128.Idx → EReal) (ix2 (0 : Fin 1) j')) = cur1 (gbA m c) := by
    funext j'; exact Host.V1_main_v9 m ρ c j'
  rw [e0, e1, e2]

/-- THE KERNEL'S RESULT at entry `(q, d)`: the kernel's arrangement of the block, of the nine arguments as launched. -/
theorem kernel_value (c : Dev nD) (q : Fin 8192) (d : Fin 256) :
    (W3 m ρ c (Proc.devRef .tc main_v13) : S8192x256.Idx → EReal) (ix2 q d)
      = kerOut (cur2 (xA m c)) (cur2 (gwA m c)) (cur1 (gbA m c)) (cur2 (thwA m c)) (cur1 (thbA m c))
          (cur2 (phwA m c)) (cur1 (phbA m c)) (cur2 (WwA m c)) (cur1 (WbA m c)) q d := by
  rw [Host.W3_main_v13 m ρ c, Regions.region1_out_apply (V2 m ρ) c q d]
  have e0 : (fun k => (V2 m ρ c main_arg0 : S8192x256.Idx → EReal) (ix2 q k)) = cur2 (xA m c) q := by
    rw [Host.V2_main_arg0 m ρ c, Host.V1_main_arg0 m ρ c]
  have e1 : cur2 (V2 m ρ c main_v0 : S256x128.Idx → EReal) = cur2 (thwA m c) := by
    rw [Host.V2_main_v0 m ρ c, Host.V1_main_v0 m ρ c]
  have e2 : cur2 (V2 m ρ c main_v3 : S256x128.Idx → EReal) = fun k j => cur2 (thwA m c) k j - cur2 (thwA m c) k j := by
    rw [Host.V2_main_v3 m ρ c]; funext k j; exact Host.V1_main_v3 m ρ c (ix2 k j)
  have e3 : (fun j => (V2 m ρ c main_v10 : S1x128.Idx → EReal) (ix2 (0 : Fin 1) j)) = cur1 (thbA m c) := by
    rw [Host.V2_main_v10 m ρ c]; funext j; exact Host.V1_main_v10 m ρ c j
  have e4 : cur2 (V2 m ρ c main_v12_0 : S8192x384.Idx → EReal)
      = fun n => packRow (projSplitRow (cur2 (xA m c) n) (cur2 (phwA m c)) (fun k j => cur2 (phwA m c) k j - cur2 (phwA m c) k j) (cur1 (phbA m c))) :=
    funext fun n => packed_row m ρ c n
  have e5 : cur2 (V2 m ρ c main_v12_1 : S8192x128.Idx → EReal)
      = fun n => projRow (cur2 (xA m c) n) (cur2 (gwA m c)) (cur1 (gbA m c)) :=
    funext fun n => g_row m ρ c n
  have e6 : cur2 (V2 m ρ c main_arg7 : S128x256.Idx → EReal) = cur2 (WwA m c) := by
    rw [Host.V2_main_arg7 m ρ c, Host.V1_main_arg7 m ρ c]
  have e7 : (fun d' => (V2 m ρ c main_v11 : S1x256.Idx → EReal) (ix2 (0 : Fin 1) d')) = cur1 (WbA m c) := by
    rw [Host.V2_main_v11 m ρ c]; funext d'; exact Host.V1_main_v11 m ρ c d'
  rw [e0, e1, e2, e3, e4, e5, e6, e7]
  rfl

end Cert.KernelIdeal.Result

end
-- ==== Proof.RefValue.lean ====
/- The reference's result read at an entry `(q, c)` is the plain arrangement of the attention block: three affine
   projections, the scores, a softmax along each row (maximum from `-∞`, exponentials, their sum, the quotients), the
   attended row, and the output projection with its bias and the residual. -/
import proofs.«403041_j12627203850615_3_alg».proof.Proof.Gen.ReferenceIdeal.Read
import proofs.«403041_j12627203850615_3_alg».proof.Proof.Spec

noncomputable section

open scoped BigOperators

namespace Cert.ReferenceIdeal.RefValue

open Cert.ReferenceIdeal Cert.ReferenceIdeal.Gen Cert.Attn
open Idealize.ShloMosaic Idealize.ShloMosaic.ValueIdx

section Stages

variable (x0 : (⟨S8192x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (x7 : (⟨S128x256, .f32⟩ : BufTy).Contents (Elt Ideal))
    (x8 : (⟨S256, .f32⟩ : BufTy).Contents (Elt Ideal))

/-- The scores of query row `q` against every row `n`: the inner product of the `θ` projection of row `q`
    with the `φ` projection of row `n`. -/
private abbrev scr (q : Fin 8192) : Fin 8192 → EReal := fun n =>
  ∑ k : Fin 128, projRow (cur2 x0 q) (cur2 x3) (cur1 x4) k * projRow (cur2 x0 n) (cur2 x5) (cur1 x6) k

/-- The `g` projection at `(n, j)`: row `n` of the input times column `j` of the weight, plus the bias. -/
private theorem g_apply (n : Fin 8192) (j : Fin 128) :
    Read.val_main_v3 (F := Ideal) x0 x1 x2 (ix2 n j) = projRow (cur2 x0 n) (cur2 x1) (cur1 x2) j := by
  have el : ∀ k : Fin 256, Read.lidx_main_v0 (ix2 n j) k = ix2 n k := fun k =>
    funext fun a => Fin.ext (by match a with | ⟨0, _⟩ => rfl | ⟨1, _⟩ => rfl)
  have er : ∀ k : Fin 256, Read.ridx_main_v0 (ix2 n j) k = ix2 k j := fun k =>
    funext fun a => Fin.ext (by match a with | ⟨0, _⟩ => rfl | ⟨1, _⟩ => rfl)
  have eb : Read.idx_main_v1 (Read.idx_main_v2 (ix2 n j)) = ix1 j :=
    funext fun a => Fin.ext (by match a with | ⟨0, _⟩ => rfl)
  rw [Read.val_main_v3_apply, Read.val_main_v0_apply, Read.val_main_v2_apply, Read.val_main_v1_apply, eb,
    Ideal.addf_def]
  unfold projRow
  refine congrArg (· + _) (Finset.sum_congr rfl fun k _ => ?_)
  rw [el, er]

/-- The `θ` projection at `(n, j)`. -/
private theorem th_apply (n : Fin 8192) (j : Fin 128) :
    Read.val_main_v7 (F := Ideal) x0 x3 x4 (ix2 n j) = projRow (cur2 x0 n) (cur2 x3) (cur1 x4) j := by
  have el : ∀ k : Fin 256, Read.lidx_main_v4 (ix2 n j) k = ix2 n k := fun k =>
    funext fun a => Fin.ext (by match a with | ⟨0, _⟩ => rfl | ⟨1, _⟩ => rfl)
  have er : ∀ k : Fin 256, Read.ridx_main_v4 (ix2 n j) k = ix2 k j := fun k =>
    funext fun a => Fin.ext (by match a with | ⟨0, _⟩ => rfl | ⟨1, _⟩ => rfl)
  have eb : Read.idx_main_v5 (Read.idx_main_v6 (ix2 n j)) = ix1 j :=
    funext fun a => Fin.ext (by match a with | ⟨0, _⟩ => rfl)
  rw [Read.val_main_v7_apply, Read.val_main_v4_apply, Read.val_main_v6_apply, Read.val_main_v5_apply, eb,
    Ideal.addf_def]
  unfold projRow
  refine congrArg (· + _) (Finset.sum_congr rfl fun k _ => ?_)
  rw [el, er]

/-- The `φ` projection at `(n, j)`. -/
private theorem ph_apply (n : Fin 8192) (j : Fin 128) :
    Read.val_main_v11 (F := Ideal) x0 x5 x6 (ix2 n j) = projRow (cur2 x0 n) (cur2 x5) (cur1 x6) j := by
  have el : ∀ k : Fin 256, Read.lidx_main_v8 (ix2 n j) k = ix2 n k := fun k =>
    funext fun a => Fin.ext (by match a with | ⟨0, _⟩ => rfl | ⟨1, _⟩ => rfl)
  have er : ∀ k : Fin 256, Read.ridx_main_v8 (ix2 n j) k = ix2 k j := fun k =>
    funext fun a => Fin.ext (by match a with | ⟨0, _⟩ => rfl | ⟨1, _⟩ => rfl)
  have eb : Read.idx_main_v9 (Read.idx_main_v10 (ix2 n j)) = ix1 j :=
    funext fun a => Fin.ext (by match a with | ⟨0, _⟩ => rfl)
  rw [Read.val_main_v11_apply, Read.val_main_v8_apply, Read.val_main_v10_apply, Read.val_main_v9_apply, eb,
    Ideal.addf_def]
  unfold projRow
  refine congrArg (· + _) (Finset.sum_congr rfl fun k _ => ?_)
  rw [el, er]

/-- The score at `(q, n)`: the `φ` projection is transposed before the product, so the contraction runs over
    the 128 projected channels of rows `q` and `n`. -/
private theorem score_apply (q n : Fin 8192) :
    Read.val_main_v13 (F := Ideal) x0 x3 x4 x5 x6 (ix2 q n) = scr x0 x3 x4 x5 x6 q n := by
  have el : ∀ k : Fin 128, Read.lidx_main_v13 (ix2 q n) k = ix2 q k := fun k =>
    funext fun a => Fin.ext (by match a with | ⟨0, _⟩ => rfl | ⟨1, _⟩ => rfl)
  have er : ∀ k : Fin 128, Read.idx_main_v12 (Read.ridx_main_v13 (ix2 q n) k) = ix2 n k := fun k =>
    funext fun a => Fin.ext (by match a with | ⟨0, _⟩ => rfl | ⟨1, _⟩ => rfl)
  rw [Read.val_main_v13_apply]
  refine Finset.sum_congr rfl fun k _ => ?_
  rw [Read.val_main_v12_apply, el, er, th_apply, ph_apply]

/-- The f32 pattern of `-∞` is the least extended real. -/
private theorem ofBits_neg_inf : (FloatOps.ofBits .f32 0xFF800000#32 : Ideal .f32) = ⊥ := by
  show Ideal.ofBits .f32 0xFF800000#32 = ⊥
  simp [Ideal.ofBits, Ideal.ieee]

/-- The row maximum at `q`: the reduction over axis 1 from `-∞` is the fold of `max` from `⊥` over the scores of
    row `q`, and the further maximum with a broadcast `-∞` changes nothing. -/
private theorem max_apply (q : Fin 8192) :
    Read.val_main_v16 (F := Ideal) x0 x3 x4 x5 x6 (ix1 q) = rowMax (scr x0 x3 x4 x5 x6 q) := by
  have hred : S8192x8192.Reduces [1] S8192 := by decide
  have elift : ∀ k : Fin 8192, hred.lift (ix1 q) k = ix2 q k := fun k =>
    funext fun a => Fin.ext (by match a with | ⟨0, _⟩ => rfl | ⟨1, _⟩ => rfl)
  rw [Read.val_main_v16_apply, Read.val_main_v15_apply, Read.val_main_cst_0_apply, ofBits_neg_inf,
    Ideal.maximumf_def, max_bot_left]
  unfold Read.val_main_v14
  rw [Host.reduce_eq_fold_single FloatOps.maximumf _ _ reducesTo_S8192x8192_S8192_d1 hred h_S_ (ix1 q),
    Read.val_main_cst_apply, ofBits_neg_inf]
  unfold rowMax
  show Finset.fold max ⊥ (fun k : Fin 8192 => Read.val_main_v13 (F := Ideal) x0 x3 x4 x5 x6 (hred.lift (ix1 q) k))
      (Finset.univ : Finset (Fin 8192)) = _
  refine congrArg (fun f => Finset.fold max ⊥ f (Finset.univ : Finset (Fin 8192))) (funext fun k => ?_)
  rw [elift, score_apply]

/-- The unnormalised weight at `(q, n)`: the exponential of the score less the row maximum. -/
private theorem weight_apply (q n : Fin 8192) :
    Read.val_main_v20 (F := Ideal) x0 x3 x4 x5 x6 (ix2 q n) = expRow (scr x0 x3 x4 x5 x6 q) n := by
  have e : Read.idx_main_v17 (Read.idx_main_v18 (ix2 q n)) = ix1 q :=
    funext fun a => Fin.ext (by match a with | ⟨0, _⟩ => rfl)
  rw [Read.val_main_v20_apply, Read.val_main_v19_apply, Read.val_main_v18_apply, Read.val_main_v17_apply, e,
    max_apply, score_apply, Ideal.subf_def, Ideal.hostUnary_exp_def]
  rfl

/-- The normaliser at `q`: the sum from zero of the weights of row `q`. -/
private theorem sum_apply (q : Fin 8192) :
    Read.val_main_v21 (F := Ideal) x0 x3 x4 x5 x6 (ix1 q) = rowSum (scr x0 x3 x4 x5 x6 q) := by
  have e : ∀ k : Fin 8192, Read.idx_main_v21 (ix1 q) k = ix2 q k := fun k =>
    funext fun a => Fin.ext (by match a with | ⟨0, _⟩ => rfl | ⟨1, _⟩ => rfl)
  rw [Read.val_main_v21_apply, Read.val_main_cst_1_apply]
  show Ideal.ofBits .f32 0x00000000#32 + _ = _
  rw [Ideal.ofBits_zero_f32, zero_add]
  unfold rowSum
  refine Finset.sum_congr rfl fun k _ => ?_
  rw [e, weight_apply]

/-- The normalised weight at `(q, n)`. -/
private theorem prob_apply (q n : Fin 8192) :
    Read.val_main_v24 (F := Ideal) x0 x3 x4 x5 x6 (ix2 q n)
      = Ideal.div (expRow (scr x0 x3 x4 x5 x6 q) n) (rowSum (scr x0 x3 x4 x5 x6 q)) := by
  have e : Read.idx_main_v22 (Read.idx_main_v23 (ix2 q n)) = ix1 q :=
    funext fun a => Fin.ext (by match a with | ⟨0, _⟩ => rfl)
  rw [Read.val_main_v24_apply, Read.val_main_v23_apply, Read.val_main_v22_apply, e, sum_apply, weight_apply,
    Ideal.hostDivf_def]

/-- The attended row at `(q, j)`: the normalised weights of row `q` against column `j` of the `g` projections. -/
private theorem attend_apply (q : Fin 8192) (j : Fin 128) :
    Read.val_main_v25 (F := Ideal) x0 x1 x2 x3 x4 x5 x6 (ix2 q j)
      = attendPlain (scr x0 x3 x4 x5 x6 q) (fun n => projRow (cur2 x0 n) (cur2 x1) (cur1 x2)) j := by
  have el : ∀ k : Fin 8192, Read.lidx_main_v25 (ix2 q j) k = ix2 q k := fun k =>
    funext fun a => Fin.ext (by match a with | ⟨0, _⟩ => rfl | ⟨1, _⟩ => rfl)
  have er : ∀ k : Fin 8192, Read.ridx_main_v25 (ix2 q j) k = ix2 k j := fun k =>
    funext fun a => Fin.ext (by match a with | ⟨0, _⟩ => rfl | ⟨1, _⟩ => rfl)
  rw [Read.val_main_v25_apply]
  unfold attendPlain
  refine Finset.sum_congr rfl fun k _ => ?_
  rw [el, er, prob_apply, g_apply]

end Stages

/-- Entry `(q, c)` of the reference's result, as a function of its nine arguments, is the plain arrangement of the block. -/
theorem ref_apply (x0 : (⟨S8192x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (x7 : (⟨S128x256, .f32⟩ : BufTy).Contents (Elt Ideal))
    (x8 : (⟨S256, .f32⟩ : BufTy).Contents (Elt Ideal)) (q : Fin 8192) (c : Fin 256) :
    Cert.ReferenceIdeal.Read.val_main_v30 (F := Ideal) x0 x1 x2 x3 x4 x5 x6 x7 x8 (ix2 q c)
      = refOut (cur2 x0) (cur2 x1) (cur1 x2) (cur2 x3) (cur1 x4) (cur2 x5) (cur1 x6) (cur2 x7) (cur1 x8) q c := by
  have el : ∀ k : Fin 128, Read.lidx_main_v26 (ix2 q c) k = ix2 q k := fun k =>
    funext fun a => Fin.ext (by match a with | ⟨0, _⟩ => rfl | ⟨1, _⟩ => rfl)
  have er : ∀ k : Fin 128, Read.ridx_main_v26 (ix2 q c) k = ix2 k c := fun k =>
    funext fun a => Fin.ext (by match a with | ⟨0, _⟩ => rfl | ⟨1, _⟩ => rfl)
  have eb : Read.idx_main_v27 (Read.idx_main_v28 (ix2 q c)) = ix1 c :=
    funext fun a => Fin.ext (by match a with | ⟨0, _⟩ => rfl)
  rw [Read.val_main_v30_apply, Read.val_main_v29_apply, Read.val_main_v26_apply, Read.val_main_v28_apply,
    Read.val_main_v27_apply, eb, Ideal.addf_def, Ideal.addf_def]
  unfold refOut outRow
  refine congrArg (· + _) (congrArg (· + _) (Finset.sum_congr rfl fun k _ => ?_))
  rw [el, er, attend_apply]

end Cert.ReferenceIdeal.RefValue

end
-- ==== Proof.Finite.lean ====
/- The precondition read: where the printed predicate `|a| < +∞` holds of every entry of the nine argument arrays, every entry is a real number. -/
import proofs.«403041_j12627203850615_3_alg».proof.Pre_finite_inputs
import proofs.«403041_j12627203850615_3_alg».proof.Proof.Gen.Pre_finite_inputs
import proofs.«403041_j12627203850615_3_alg».proof.Proof.Spec
import Idealize.ShloMosaic.Lib.ReduceAll

noncomputable section

namespace Cert.Pre_finite_inputs.Finite

open Cert.Pre_finite_inputs Cert.Attn
open Idealize.ShloMosaic Idealize.ShloMosaic.ValueIdx

/-- A rank-0 array has exactly one index. -/
private instance subsingleton_S_ : Subsingleton S_.Idx := ⟨fun a b => funext fun d => d.elim0⟩

/-- The pattern `0x7F800000` (exponent all ones, significand zero, sign clear) denotes `+∞`. -/
private theorem ofBits_inf : Ideal.ofBits .f32 0x7F800000#32 = ⊤ := by simp [Ideal.ofBits, Ideal.ieee]

/-- `|x| < +∞` holds only at a real number: at either infinity `max x (-x)` is `+∞`, which is not below itself. -/
private theorem real_of_abs_lt_inf (x : EReal)
    (h : Ideal.cmp .olt (max x (-x)) (Ideal.ofBits .f32 0x7F800000#32) = 1#1) : ∃ t : ℝ, x = (t : EReal) := by
  rw [ofBits_inf] at h
  induction x using EReal.rec with
  | bot => simp [Ideal.cmp] at h
  | coe t => exact ⟨t, rfl⟩
  | top => simp [Ideal.cmp] at h

/-- One conjunct of the predicate: the conjunction over all entries of `|a| < +∞` being true says every entry of
    `a` is a real number. -/
private theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ix0 = 1#1) (i : s.Idx) : ∃ t : ℝ, a i = (t : EReal) :=
  real_of_abs_lt_inf (a i) (Host.reduce_andi_all _ _ hr hu ix0 e i)

/-- If the precondition's predicate is all ones on nine arrays of extended reals, every entry of each is real. -/
theorem real_of_pre [Cert.Pre_finite_inputs.Facts]
    (a0 : FVec Ideal S8192x256 .f32) (a1 : FVec Ideal S256x128 .f32) (a2 : FVec Ideal S128 .f32)
    (a3 : FVec Ideal S256x128 .f32) (a4 : FVec Ideal S128 .f32) (a5 : FVec Ideal S256x128 .f32) (a6 : FVec Ideal S128 .f32)
    (a7 : FVec Ideal S128x256 .f32) (a8 : FVec Ideal S256 .f32)
    (h : Cert.Pre_finite_inputs.fn (F := Ideal) a0 a1 a2 a3 a4 a5 a6 a7 a8 = fun _ => 1#1) :
    IsRealM (cur2 a0) ∧ IsRealM (cur2 a1) ∧ IsRealV (cur1 a2) ∧ IsRealM (cur2 a3) ∧ IsRealV (cur1 a4)
      ∧ IsRealM (cur2 a5) ∧ IsRealV (cur1 a6) ∧ IsRealM (cur2 a7) ∧ IsRealV (cur1 a8) := by
  have h0 := congrFun h ix0
  dsimp only [fn, fn_part1, fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨fun i j => real_of_all a0 _ _ _ e0 (ix2 i j), fun i j => real_of_all a1 _ _ _ e1 (ix2 i j),
    fun j => real_of_all a2 _ _ _ e2 (ix1 j), fun i j => real_of_all a3 _ _ _ e3 (ix2 i j),
    fun j => real_of_all a4 _ _ _ e4 (ix1 j), fun i j => real_of_all a5 _ _ _ e5 (ix2 i j),
    fun j => real_of_all a6 _ _ _ e6 (ix1 j), fun i j => real_of_all a7 _ _ _ e7 (ix2 i j),
    fun j => real_of_all a8 _ _ _ e8 (ix1 j)⟩

end Cert.Pre_finite_inputs.Finite

end
-- ==== Proof.Math.lean ====
/- The two arrangements of the attention block agree on finite entries: the residuals of the split factors vanish,
   the three laid-out pieces contract piece by piece, and the division by the softmax normaliser moves across the sum. -/
import proofs.«403041_j12627203850615_3_alg».proof.Proof.Spec
import Mathlib.Algebra.BigOperators.Fin
import Mathlib.Data.Finset.Fold
import Mathlib.Algebra.Order.BigOperators.Group.Finset
import Mathlib.Analysis.Complex.Exponential
import Mathlib.Data.EReal.Operations

noncomputable section

open scoped BigOperators

namespace Cert.Attn

open Idealize.ShloMosaic

/-! ## Three pieces laid end to end -/

/-- The sum over the laid-out axis is the sum of the three pieces' sums. -/
private theorem sum_cat3 {α : Type} [AddCommMonoid α] (w W : ℕ) (hW : W = w + w + w) (a b c : Fin w → α) :
    ∑ k : Fin W, cat3 w W hW a b c k = ∑ k, a k + ∑ k, b k + ∑ k, c k := by
  subst hW
  rw [Fin.sum_univ_add, Fin.sum_univ_add]
  have h1 : ∀ i : Fin w, cat3 w (w + w + w) rfl a b c (Fin.castAdd w (Fin.castAdd w i)) = a i := by
    intro i
    have hlt : (Fin.castAdd w (Fin.castAdd w i)).val < w := by simp
    unfold cat3
    rw [dif_pos hlt]
    congr 1
  have h2 : ∀ i : Fin w, cat3 w (w + w + w) rfl a b c (Fin.castAdd w (Fin.natAdd w i)) = b i := by
    intro i
    have hn : ¬ (Fin.castAdd w (Fin.natAdd w i)).val < w := by simp
    have hlt : (Fin.castAdd w (Fin.natAdd w i)).val < w + w := by simp
    unfold cat3
    rw [dif_neg hn, dif_pos hlt]
    congr 1
    apply Fin.ext
    simp
  have h3 : ∀ i : Fin w, cat3 w (w + w + w) rfl a b c (Fin.natAdd (w + w) i) = c i := by
    intro i
    have hn : ¬ (Fin.natAdd (w + w) i).val < w := by simp; omega
    have hn2 : ¬ (Fin.natAdd (w + w) i).val < w + w := by simp
    unfold cat3
    rw [dif_neg hn, dif_neg hn2]
    congr 1
    apply Fin.ext
    simp
  simp only [h1, h2, h3]

/-- The pointwise product of two laid-out rows is the laid-out row of the pointwise products. -/
private theorem cat3_mul {α : Type} [Mul α] (w W : ℕ) (hW : W = w + w + w) (a b c a' b' c' : Fin w → α) (k : Fin W) :
    cat3 w W hW a b c k * cat3 w W hW a' b' c' k
      = cat3 w W hW (fun i => a i * a' i) (fun i => b i * b' i) (fun i => c i * c' i) k := by
  unfold cat3
  split_ifs <;> rfl

/-! ## Finite entries -/

/-- An extended real that is a real number. -/
private def IsR (a : EReal) : Prop := ∃ t : ℝ, a = (t : EReal)

private theorem IsR.sub_self {a : EReal} (h : IsR a) : a - a = 0 := by
  obtain ⟨t, rfl⟩ := h
  rw [← EReal.coe_sub, _root_.sub_self t, EReal.coe_zero]

private theorem IsR.add {a b : EReal} (ha : IsR a) (hb : IsR b) : IsR (a + b) := by
  obtain ⟨s, rfl⟩ := ha
  obtain ⟨t, rfl⟩ := hb
  exact ⟨s + t, (EReal.coe_add s t).symm⟩

private theorem IsR.mul {a b : EReal} (ha : IsR a) (hb : IsR b) : IsR (a * b) := by
  obtain ⟨s, rfl⟩ := ha
  obtain ⟨t, rfl⟩ := hb
  exact ⟨s * t, (EReal.coe_mul s t).symm⟩

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem IsR.sum {ι : Type} (s : Finset ι) (f : ι → EReal) (h : ∀ i, IsR (f i)) : IsR (∑ i ∈ s, f i) := by
  choose fr hfr using h
  refine ⟨∑ i ∈ s, fr i, ?_⟩
  rw [coe_sum]
  exact Finset.sum_congr rfl (fun i _ => hfr i)

/-! ## The projections -/

/-- With finite row and weights the split projection is the plain one: the residuals are zero. -/
private theorem projSplitRow_eq (xr : Fin 256 → EReal) (w : Mat 256 128) (b : Fin 128 → EReal)
    (hx : IsRealV xr) (hw : IsRealM w) (j : Fin 128) :
    projSplitRow xr w (fun k j => w k j - w k j) b j = projRow xr w b j := by
  unfold projSplitRow projRow
  congr 1
  simp only [cat3_mul]
  rw [sum_cat3]
  have h2 : ∀ k : Fin 256, (xr k - xr k) * w k j = 0 := fun k => by
    rw [IsR.sub_self (hx k), zero_mul]
  have h3 : ∀ k : Fin 256, xr k * (w k j - w k j) = 0 := fun k => by
    rw [IsR.sub_self (hw k j), mul_zero]
  simp only [h2, h3, Finset.sum_const_zero, add_zero]

/-- A projection of finite data is finite. -/
private theorem projRow_isR (xr : Fin 256 → EReal) (w : Mat 256 128) (b : Fin 128 → EReal)
    (hx : IsRealV xr) (hw : IsRealM w) (hb : IsRealV b) (j : Fin 128) : IsR (projRow xr w b j) := by
  unfold projRow
  exact IsR.add (IsR.sum _ _ (fun k => IsR.mul (hx k) (hw k j))) (hb j)

/-- With finite rows the split score is the plain inner product. -/
private theorem scoreSplitRow_eq (θ : Fin 128 → EReal) (φ : Mat 8192 128)
    (hθ : ∀ k, IsR (θ k)) (hφ : ∀ n k, IsR (φ n k)) (n : Fin 8192) :
    scoreSplitRow θ (fun n => packRow (φ n)) n = ∑ k : Fin 128, θ k * φ n k := by
  unfold scoreSplitRow packRow
  simp only [cat3_mul]
  rw [sum_cat3]
  have h2 : ∀ k : Fin 128, (θ k - θ k) * φ n k = 0 := fun k => by
    rw [IsR.sub_self (hθ k), zero_mul]
  have h3 : ∀ k : Fin 128, θ k * (φ n k - φ n k) = 0 := fun k => by
    rw [IsR.sub_self (hφ n k), mul_zero]
  simp only [h2, h3, Finset.sum_const_zero, add_zero]

/-! ## The softmax -/

/-- The largest of finitely many reals, folded from minus infinity over a nonempty index set, is a real. -/
private theorem rowMax_isR (s : Fin 8192 → EReal) (hs : ∀ n, IsR (s n)) : IsR (rowMax s) := by
  have hlt : rowMax s < ⊤ := by
    unfold rowMax
    rw [Finset.fold_max_lt]
    refine ⟨bot_lt_top, fun n _ => ?_⟩
    obtain ⟨t, ht⟩ := hs n
    rw [ht]
    exact EReal.coe_lt_top t
  have hgt : ⊥ < rowMax s := by
    unfold rowMax
    rw [Finset.lt_fold_max]
    right
    refine ⟨⟨0, by norm_num⟩, Finset.mem_univ _, ?_⟩
    obtain ⟨t, ht⟩ := hs ⟨0, by norm_num⟩
    rw [ht]
    exact EReal.bot_lt_coe t
  exact ⟨(rowMax s).toReal, (EReal.coe_toReal hlt.ne hgt.ne').symm⟩

/-- On finite scores and values, dividing after the sum over the rows is dividing each weight before it. -/
private theorem attendLate_eq_attendPlain (s : Fin 8192 → EReal) (g : Mat 8192 128)
    (hs : ∀ n, IsR (s n)) (hg : ∀ n j, IsR (g n j)) (j : Fin 128) :
    attendLate s g j = attendPlain s g j := by
  obtain ⟨m, hm⟩ := rowMax_isR s hs
  choose sr hsr using hs
  choose gr hgr using hg
  have he : ∀ n, expRow s n = ((Real.exp (sr n - m) : ℝ) : EReal) := by
    intro n
    unfold expRow
    rw [hm, hsr n, ← EReal.coe_sub, Ideal.exp_coe]
  have hL : rowSum s = ((∑ n : Fin 8192, Real.exp (sr n - m) : ℝ) : EReal) := by
    unfold rowSum
    rw [coe_sum]
    exact Finset.sum_congr rfl (fun n _ => he n)
  have hpos : (0 : ℝ) < ∑ n : Fin 8192, Real.exp (sr n - m) :=
    Finset.sum_pos (fun n _ => Real.exp_pos _) ⟨⟨0, by norm_num⟩, Finset.mem_univ _⟩
  unfold attendLate attendPlain
  rw [hL, Ideal.div_coe hpos.ne']
  simp only [he, hgr, Ideal.div_coe hpos.ne', ← EReal.coe_mul, ← coe_sum]
  congr 1
  rw [Finset.sum_mul]
  exact Finset.sum_congr rfl (fun n _ => by ring)

/-! ## The whole block -/

/-- On real (finite) inputs the kernel's arrangement — split factors laid end to end, division by the softmax
    normaliser after the sum — is the plain one, entry by entry. -/
theorem kerOut_eq_refOut (x : Mat 8192 256) (gw : Mat 256 128) (gb : Fin 128 → EReal) (thw : Mat 256 128) (thb : Fin 128 → EReal)
    (phw : Mat 256 128) (phb : Fin 128 → EReal) (Ww : Mat 128 256) (Wb : Fin 256 → EReal)
    (hx : IsRealM x) (hgw : IsRealM gw) (hgb : IsRealV gb) (hthw : IsRealM thw) (hthb : IsRealV thb)
    (hphw : IsRealM phw) (hphb : IsRealV phb) (hWw : IsRealM Ww) (hWb : IsRealV Wb) :
    kerOut x gw gb thw thb phw phb Ww Wb = refOut x gw gb thw thb phw phb Ww Wb := by
  funext q c
  have hθ : projSplitRow (x q) thw (fun k j => thw k j - thw k j) thb = projRow (x q) thw thb :=
    funext (fun j => projSplitRow_eq (x q) thw thb (hx q) hthw j)
  have hφ : (fun n => packRow (projSplitRow (x n) phw (fun k j => phw k j - phw k j) phb))
      = (fun n => packRow (projRow (x n) phw phb)) :=
    funext (fun n => congrArg packRow (funext (fun j => projSplitRow_eq (x n) phw phb (hx n) hphw j)))
  have hθr : ∀ k, IsR (projRow (x q) thw thb k) := fun k => projRow_isR (x q) thw thb (hx q) hthw hthb k
  have hφr : ∀ n k, IsR (projRow (x n) phw phb k) := fun n k => projRow_isR (x n) phw phb (hx n) hphw hphb k
  have hgr : ∀ n j, IsR (projRow (x n) gw gb j) := fun n j => projRow_isR (x n) gw gb (hx n) hgw hgb j
  have hS : scoreSplitRow (projRow (x q) thw thb) (fun n => packRow (projRow (x n) phw phb))
      = fun n => ∑ k : Fin 128, projRow (x q) thw thb k * projRow (x n) phw phb k :=
    funext (fun n => scoreSplitRow_eq (projRow (x q) thw thb) (fun n => projRow (x n) phw phb) hθr hφr n)
  have hSr : ∀ n, IsR (∑ k : Fin 128, projRow (x q) thw thb k * projRow (x n) phw phb k) :=
    fun n => IsR.sum _ _ (fun k => IsR.mul (hθr k) (hφr n k))
  unfold kerOut refOut attnRow
  rw [hθ, hφ, hS]
  congr 1
  funext j
  exact attendLate_eq_attendPlain _ _ hSr hgr j

end Cert.Attn

end
-- ==== Proof.lean ====
/-
  The certificate of the non-local (embedded-Gaussian attention) block: a two-kernel Pallas program against its
  plain jnp reference, equal over the extended reals on finite inputs.

  The kernel splits every factor of its precision-sensitive products into a leading bf16 part and a bf16 residual and
  contracts the three cross terms in one pass; read on the extended reals a change of format is the identity, so the
  leading part of `v` is `v` and the residual is `v - v`, which vanishes exactly when `v` is finite: there the split
  products are the plain ones.  The kernel also divides by the softmax normaliser after the product with `g`, where the
  reference divides each weight first; on finite entries (and a normaliser that is a positive real) the division moves
  across the sum.  So the claim needs the precondition, and uses it.

  The three frames: the two programs with kernels by their generated frames, the reference by its generated run.
  `preserves`: the four format round trips the idealization removed are the identity on the extended reals.
  `algebraic`: the kernel's result array, entry by entry, is the kernel's arrangement of the block
  (Proof/KernelValue.lean, over the run that names the result, Proof/RunNamed.lean); the reference's is the plain
  arrangement (Proof/RefValue.lean); the precondition makes every argument entry real (Proof/Finite.lean); and on
  real entries the two arrangements agree (Proof/Math.lean).
-/
import proofs.«403041_j12627203850615_3_alg».proof.Defs
import proofs.«403041_j12627203850615_3_alg».proof.Proof.Gen.Kernel
import proofs.«403041_j12627203850615_3_alg».proof.Proof.Gen.Kernel.Skeleton
import proofs.«403041_j12627203850615_3_alg».proof.Proof.Gen.Kernel.Launch
import proofs.«403041_j12627203850615_3_alg».proof.Proof.Gen.Kernel.Points
import proofs.«403041_j12627203850615_3_alg».proof.Proof.Gen.Kernel.Frame
import proofs.«403041_j12627203850615_3_alg».proof.Proof.Gen.KernelIdeal
import proofs.«403041_j12627203850615_3_alg».proof.Proof.Gen.KernelIdeal.Skeleton
import proofs.«403041_j12627203850615_3_alg».proof.Proof.Gen.KernelIdeal.Launch
import proofs.«403041_j12627203850615_3_alg».proof.Proof.Gen.KernelIdeal.Points
import proofs.«403041_j12627203850615_3_alg».proof.Proof.Gen.KernelIdeal.Frame
import proofs.«403041_j12627203850615_3_alg».proof.Proof.Gen.ReferenceIdeal
import proofs.«403041_j12627203850615_3_alg».proof.Proof.Gen.Pre_finite_inputs
import proofs.«403041_j12627203850615_3_alg».proof.Proof.Gen.ReferenceIdeal.Run
import proofs.«403041_j12627203850615_3_alg».proof.Proof.Gen.ReferenceIdeal.Read
import proofs.«403041_j12627203850615_3_alg».proof.Proof.RunNamed
import proofs.«403041_j12627203850615_3_alg».proof.Proof.KernelValue
import proofs.«403041_j12627203850615_3_alg».proof.Proof.RefValue
import proofs.«403041_j12627203850615_3_alg».proof.Proof.Finite
import proofs.«403041_j12627203850615_3_alg».proof.Proof.Math
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Attn

namespace Claims

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four round trips through bf16 that the idealization replaced by the identity ARE the identity on the extended
    reals (and the stated rounding at the word level). -/
theorem preserves : Cert.preserves_Kernel_KernelIdeal :=
  ⟨IdealRules.truncf_extf.statement _ _ _, IdealRules.truncf_extf.statement _ _ _,
   IdealRules.truncf_extf.statement _ _ _, IdealRules.truncf_extf.statement _ _ _⟩

/-- Both programs run; the kernel's result, entry by entry the kernel's arrangement of the block, is the reference's,
    the plain arrangement, because the precondition makes every argument entry real. -/
theorem algebraic : Cert.algebraic_KernelIdeal_ReferenceIdeal := by
  intro m ρ m' ρ' hpre hagree
  refine ⟨fun c => Cert.KernelIdeal.Gen.W3 m ρ c (Proc.devRef .tc Cert.KernelIdeal.main_v13),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := Cert.Pre_finite_inputs.Finite.real_of_pre _ _ _ _ _ _ _ _ _ (hpre c)
  rw [Cert.ReferenceIdeal.Read.val_main_v30_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  funext i
  obtain ⟨q, d, rfl⟩ : ∃ (q : Fin 8192) (d : Fin 256), i = ix2 q d := ⟨i 0, i 1, eq_ix2 i⟩
  rw [Cert.ReferenceIdeal.RefValue.ref_apply]
  refine Eq.trans ?_ (Cert.KernelIdeal.Result.kernel_value m ρ c q d).symm
  exact (congrFun (congrFun (kerOut_eq_refOut _ _ _ _ _ _ _ _ _ h0 h1 h2 h3 h4 h5 h6 h7 h8) q) d).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
